-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x64 : Shape := ⟨4, ![4, 64, 64, 64]⟩
abbrev S1x64x64 : Shape := ⟨3, ![1, 64, 64]⟩
abbrev S_ : Shape := ⟨0, ![]⟩

class Facts : Prop where
  bcast_S_S4x64x64x64 : S_.BroadcastsInDim S4x64x64x64 (![] : Fin 0 → Fin S4x64x64x64.rank)
  reducesTo_S4x64x64x64_S_d0_1_2_3 : S4x64x64x64.ReducesTo [0, 1, 2, 3] S_
  h_S_ : 0 < S_.numel
  bcast_S_S1x64x64 : S_.BroadcastsInDim S1x64x64 (![] : Fin 0 → Fin S1x64x64.rank)
  reducesTo_S1x64x64_S_d0_1_2 : S1x64x64.ReducesTo [0, 1, 2] S_

variable [Facts]

def fn {F : FTy → Type} [FloatOps F] (main_arg0 : FVec F S4x64x64x64 .f32) (main_arg1 : FVec F S1x64x64 .f32) (main_arg2 : FVec F S1x64x64 .f32) : IVec S_ 1 :=
  let main_v0 : FVec F S4x64x64x64 .f32 := Host.absf main_arg0
  let main_cst : FVec F S_ .f32 := constant S_ .f32 0x7F800000#32
  let main_v1 : FVec F S4x64x64x64 .f32 := broadcastInDim S4x64x64x64 ![] bcast_S_S4x64x64x64 main_cst
  let main_v2 : IVec S4x64x64x64 1 := cmpf .olt main_v0 main_v1
  let main_c : IVec S_ 1 := constantI S_ 1 1#1
  let main_v3 : IVec S_ 1 := (fun x v => Host.reduce IntOp.andi x v reducesTo_S4x64x64x64_S_d0_1_2_3 h_S_) main_v2 main_c
  let main_v4 : FVec F S1x64x64 .f32 := Host.absf main_arg1
  let main_cst_0 : FVec F S_ .f32 := constant S_ .f32 0x7F800000#32
  let main_v5 : FVec F S1x64x64 .f32 := broadcastInDim S1x64x64 ![] bcast_S_S1x64x64 main_cst_0
  let main_v6 : IVec S1x64x64 1 := cmpf .olt main_v4 main_v5
  let main_c_1 : IVec S_ 1 := constantI S_ 1 1#1
  let main_v7 : IVec S_ 1 := (fun x v => Host.reduce IntOp.andi x v reducesTo_S1x64x64_S_d0_1_2 h_S_) main_v6 main_c_1
  let main_v8 : IVec S_ 1 := andi main_v3 main_v7
  let main_v9 : FVec F S1x64x64 .f32 := Host.absf main_arg2
  let main_cst_2 : FVec F S_ .f32 := constant S_ .f32 0x7F800000#32
  let main_v10 : FVec F S1x64x64 .f32 := broadcastInDim S1x64x64 ![] bcast_S_S1x64x64 main_cst_2
  let main_v11 : IVec S1x64x64 1 := cmpf .olt main_v9 main_v10
  let main_c_3 : IVec S_ 1 := constantI S_ 1 1#1
  let main_v12 : IVec S_ 1 := (fun x v => Host.reduce IntOp.andi x v reducesTo_S1x64x64_S_d0_1_2 h_S_) main_v11 main_c_3
  let main_v13 : IVec S_ 1 := andi main_v8 main_v12
  main_v13
-- ==== Kernel.lean ====
abbrev S4x64x64x64 : Shape := ⟨4, ![4, 64, 64, 64]⟩
abbrev S1x64x64 : Shape := ⟨3, ![1, 64, 64]⟩
abbrev S4x64x4096 : Shape := ⟨3, ![4, 64, 4096]⟩
abbrev S4x4096x64 : Shape := ⟨3, ![4, 4096, 64]⟩
abbrev S1x4096x64 : Shape := ⟨3, ![1, 4096, 64]⟩
abbrev S4096x64 : Shape := ⟨2, ![4096, 64]⟩
abbrev S4096 : Shape := ⟨1, ![4096]⟩
abbrev S4096x1 : Shape := ⟨2, ![4096, 1]⟩
abbrev S512x64 : Shape := ⟨2, ![512, 64]⟩
abbrev S512x1 : Shape := ⟨2, ![512, 1]⟩
abbrev S4096x512 : Shape := ⟨2, ![4096, 512]⟩
abbrev S1x512 : Shape := ⟨2, ![1, 512]⟩
abbrev S64x64 : Shape := ⟨2, ![64, 64]⟩

abbrev nBuf : Space → Nat
  | .hbm => 6
  | .vmem => 6
  | .smem => 0
  | _ => 0

abbrev bufTy : (tb : Table) → Fin (tcTables nBuf tb) → BufTy
  | .hbm, ⟨0, _⟩ => ⟨S4x64x64x64, .f32⟩
  | .hbm, ⟨1, _⟩ => ⟨S1x64x64, .f32⟩
  | .hbm, ⟨2, _⟩ => ⟨S1x64x64, .f32⟩
  | .hbm, ⟨3, _⟩ => ⟨S4x64x4096, .f32⟩
  | .hbm, ⟨4, _⟩ => ⟨S4x4096x64, .f32⟩
  | .hbm, ⟨5, _⟩ => ⟨S4x4096x64, .f32⟩
  | .local _ .vmem, ⟨0, _⟩ => ⟨S1x4096x64, .f32⟩
  | .local _ .vmem, ⟨1, _⟩ => ⟨S1x4096x64, .f32⟩
  | .local _ .vmem, ⟨2, _⟩ => ⟨S1x64x64, .f32⟩
  | .local _ .vmem, ⟨3, _⟩ => ⟨S1x64x64, .f32⟩
  | .local _ .vmem, ⟨4, _⟩ => ⟨S1x4096x64, .f32⟩
  | .local _ .vmem, ⟨5, _⟩ => ⟨S1x4096x64, .f32⟩
  | _, _ => ⟨S4x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x64x64x64_S4x64x4096 : S4x64x64x64.ShapeCasts S4x64x4096
  transposes_S4x64x4096_S4x4096x64_0_2_1 : S4x64x4096.Transposes [0, 2, 1] S4x4096x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S4096x64_S4096 : S4096x64.Reduces [1] S4096
  shapeCasts_S4096_S4096x1 : S4096.ShapeCasts S4096x1
  slices_S4096x64_o0_0_S512x64 : S4096x64.Slices ![0, 0] S512x64
  slices_S4096x1_o0_0_S512x1 : S4096x1.Slices ![0, 0] S512x1
  transposes_S512x1_p1_0_S1x512 : S512x1.Transposes [1, 0] S1x512
  broadcasts_S4096x1_S4096x512 : S4096x1.Broadcasts S4096x512
  broadcasts_S1x512_S4096x512 : S1x512.Broadcasts S4096x512
  natLt_1_32 : 1 < 32
  reduces_S4096x512_S4096 : S4096x512.Reduces [1] S4096
  slices_S4096x64_o512_0_S512x64 : S4096x64.Slices ![512, 0] S512x64
  slices_S4096x1_o512_0_S512x1 : S4096x1.Slices ![512, 0] S512x1
  slices_S4096x64_o1024_0_S512x64 : S4096x64.Slices ![1024, 0] S512x64
  slices_S4096x1_o1024_0_S512x1 : S4096x1.Slices ![1024, 0] S512x1
  slices_S4096x64_o1536_0_S512x64 : S4096x64.Slices ![1536, 0] S512x64
  slices_S4096x1_o1536_0_S512x1 : S4096x1.Slices ![1536, 0] S512x1
  slices_S4096x64_o2048_0_S512x64 : S4096x64.Slices ![2048, 0] S512x64
  slices_S4096x1_o2048_0_S512x1 : S4096x1.Slices ![2048, 0] S512x1
  slices_S4096x64_o2560_0_S512x64 : S4096x64.Slices ![2560, 0] S512x64
  slices_S4096x1_o2560_0_S512x1 : S4096x1.Slices ![2560, 0] S512x1
  slices_S4096x64_o3072_0_S512x64 : S4096x64.Slices ![3072, 0] S512x64
  slices_S4096x1_o3072_0_S512x1 : S4096x1.Slices ![3072, 0] S512x1
  slices_S4096x64_o3584_0_S512x64 : S4096x64.Slices ![3584, 0] S512x64
  slices_S4096x1_o3584_0_S512x1 : S4096x1.Slices ![3584, 0] S512x1
  broadcasts_S4096x1_S4096x64 : S4096x1.Broadcasts S4096x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S4096x64_S1x4096x64 : S4096x64.ShapeCasts S1x4096x64
  dot_S4096x64_S512x64_S4096x512_1_1_0_0_n_n_wf : DotDims.WF S4096x64 S512x64 S4096x512 [1] [1] [0] [0] [] []
  dot_S4096x512_S512x64_S4096x64_1_0_0_1_n_n_wf : DotDims.WF S4096x512 S512x64 S4096x64 [1] [0] [0] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S4x4096x64.size a
  hwx0_0 : ∀ i : grid0.Coords, EltTy.bits .f32 = 32 ∨ (Rect.block (s := S4x4096x64) S1x4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S1x64x64.size a
  hwx0_1 : ∀ i : grid0.Coords, EltTy.bits .f32 = 32 ∨ (Rect.block (s := S1x64x64) S1x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S1x64x64.size a
  hwx0_2 : ∀ i : grid0.Coords, EltTy.bits .f32 = 32 ∨ (Rect.block (s := S1x64x64) S1x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x64.size a ≤ S4x4096x64.size a
  hwx0_3 : ∀ i : grid0.Coords, EltTy.bits .f32 = 32 ∨ (Rect.block (s := S4x4096x64) S1x4096x64.size (cc0_transform_3 i) (hinb0_3 i)).WholeWords (EltTy.packing .f32)

variable [Facts₀]

def dot_S4096x64_S512x64_S4096x512_1_1_0_0_n_n : DotDims S4096x64 S512x64 S4096x512 where
  lhsContracting := [1]
  rhsContracting := [1]
  lhsNonContracting := [0]
  rhsNonContracting := [0]
  lhsBatch := []
  rhsBatch := []
  wf := dot_S4096x64_S512x64_S4096x512_1_1_0_0_n_n_wf
def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v1) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x64x64x64 : Shape := ⟨4, ![4, 64, 64, 64]⟩
abbrev S1x64x64 : Shape := ⟨3, ![1, 64, 64]⟩
abbrev S4x64x4096 : Shape := ⟨3, ![4, 64, 4096]⟩
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩
abbrev S4x1x4096 : Shape := ⟨3, ![4, 1, 4096]⟩
abbrev S64x64 : Shape := ⟨2, ![64, 64]⟩

abbrev nBuf : Space → Nat
  | .hbm => 90
  | .vmem => 0
  | .smem => 0
  | _ => 0

abbrev bufTy : (tb : Table) → Fin (tcTables nBuf tb) → BufTy
  | .hbm, ⟨0, _⟩ => ⟨S4x64x64x64, .f32⟩
  | .hbm, ⟨1, _⟩ => ⟨S1x64x64, .f32⟩
  | .hbm, ⟨2, _⟩ => ⟨S1x64x64, .f32⟩
  | .hbm, ⟨3, _⟩ => ⟨S4x64x4096, .f32⟩
  | .hbm, ⟨4, _⟩ => ⟨S4x4096x64, .f32⟩
  | .hbm, ⟨5, _⟩ => ⟨S4x4096x64, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S4x4096x1, .f32⟩
  | .hbm, ⟨10, _⟩ => ⟨S4x4096x4096, .f32⟩
  | .hbm, ⟨11, _⟩ => ⟨S4x1x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096x4096, .f32⟩
  | .hbm, ⟨18, _⟩ => ⟨S4x4096x4096, .i1⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S4x4096x1, .f32⟩
  | .hbm, ⟨27, _⟩ => ⟨S4x4096x4096, .f32⟩
  | .hbm, ⟨28, _⟩ => ⟨S4x4096x4096, .f32⟩
  | .hbm, ⟨29, _⟩ => ⟨S4x1x4096, .f32⟩
  | .hbm, ⟨30, _⟩ => ⟨S4x4096x4096, .f32⟩
  | .hbm, ⟨31, _⟩ => ⟨S4x4096x4096, .f32⟩
  | .hbm, ⟨32, _⟩ => ⟨S4x4096x64, .f32⟩
  | .hbm, ⟨33, _⟩ => ⟨S64x64, .f32⟩
  | .hbm, ⟨34, _⟩ => ⟨S4x4096x64, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x64, .f32⟩
  | .hbm, ⟨42, _⟩ => ⟨S4x4096x64, .f32⟩
  | .hbm, ⟨43, _⟩ => ⟨S4x4096x64, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x64, .f32⟩
  | .hbm, ⟨51, _⟩ => ⟨S4x4096x64, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x4096x1, .f32⟩
  | .hbm, ⟨56, _⟩ => ⟨S4x4096x64, .f32⟩
  | .hbm, ⟨57, _⟩ => ⟨S4x4096x64, .f32⟩
  | .hbm, ⟨58, _⟩ => ⟨S_, .f32⟩
  | .hbm, ⟨59, _⟩ => ⟨S4x4096x64, .f32⟩
  | .hbm, ⟨60, _⟩ => ⟨S4x4096x64, .f32⟩
  | .hbm, ⟨61, _⟩ => ⟨S4x4096x64, .f32⟩
  | .hbm, ⟨62, _⟩ => ⟨S64x64, .f32⟩
  | .hbm, ⟨63, _⟩ => ⟨S4x4096x64, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4x4096x64, .f32⟩
  | .hbm, ⟨71, _⟩ => ⟨S4x4096x64, .f32⟩
  | .hbm, ⟨72, _⟩ => ⟨S4x4096x64, .f32⟩
  | .hbm, ⟨73, _⟩ => ⟨S_, .f32⟩
  | .hbm, ⟨74, _⟩ => ⟨S4x4096, .f32⟩
  | .hbm, ⟨75, _⟩ => ⟨S4x4096x1, .f32⟩
  | .hbm, ⟨76, _⟩ => ⟨S_, .f32⟩
  | .hbm, ⟨77, _⟩ => ⟨S4x4096x1, .f32⟩
  | .hbm, ⟨78, _⟩ => ⟨S4x4096x1, .f32⟩
  | .hbm, ⟨79, _⟩ => ⟨S4x4096x64, .f32⟩
  | .hbm, ⟨80, _⟩ => ⟨S4x4096x64, .f32⟩
  | .hbm, ⟨81, _⟩ => ⟨S_, .f32⟩
  | .hbm, ⟨82, _⟩ => ⟨S4x4096x1, .f32⟩
  | .hbm, ⟨83, _⟩ => ⟨S4x4096x1, .f32⟩
  | .hbm, ⟨84, _⟩ => ⟨S4x4096x1, .f32⟩
  | .hbm, ⟨85, _⟩ => ⟨S4x4096x64, .f32⟩
  | .hbm, ⟨86, _⟩ => ⟨S4x4096x64, .f32⟩
  | .hbm, ⟨87, _⟩ => ⟨S_, .f32⟩
  | .hbm, ⟨88, _⟩ => ⟨S4x4096x64, .f32⟩
  | .hbm, ⟨89, _⟩ => ⟨S4x4096x64, .f32⟩
  | _, _ => ⟨S4x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call0_cst : Ref sig .tc := ⟨.hbm, 58, rfl⟩
abbrev main_call0_v0 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_12 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_call1_cst : Ref sig .tc := ⟨.hbm, 87, rfl⟩
abbrev main_call1_v0 : Ref sig .tc := ⟨.hbm, 88, rfl⟩
abbrev main_v68 : Ref sig .tc := ⟨.hbm, 89, rfl⟩

abbrev nD : Nat := 1
abbrev τ : Topo := Topo.v7x

variable {F : FTy → Type} [FloatOps F]

class Facts₀ : Prop where
  shapeCasts_S4x64x64x64_S4x64x4096 : S4x64x64x64.ShapeCasts S4x64x4096
  transposes_S4x64x4096_S4x4096x64_0_2_1 : S4x64x4096.Transposes [0, 2, 1] S4x4096x64
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  transposes_S4x4096x1_S4x1x4096_0_2_1 : S4x4096x1.Transposes [0, 2, 1] S4x1x4096
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  shapeCasts_S1x64x64_S64x64 : S1x64x64.ShapeCasts S64x64
  bcast_S_S4x4096x1 : S_.BroadcastsInDim S4x4096x1 (![] : Fin 0 → Fin S4x4096x1.rank)
  bcast_S4x4096x1_S4x4096x64_0_1_2 : S4x4096x1.BroadcastsInDim S4x4096x64 (![0, 1, 2] : Fin 3 → Fin S4x4096x64.rank)
  bcast_S_S4x4096x64 : S_.BroadcastsInDim S4x4096x64 (![] : Fin 0 → Fin S4x4096x64.rank)
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]
  dot_S4x4096x64_S64x64_S4x4096x64_2_0_01_1_n_n_wf : DotDims.WF S4x4096x64 S64x64 S4x4096x64 [2] [0] [0, 1] [1] [] []

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf
def dot_S4x4096x64_S64x64_S4x4096x64_2_0_01_1_n_n : DotDims S4x4096x64 S64x64 S4x4096x64 where
  lhsContracting := [2]
  rhsContracting := [0]
  lhsNonContracting := [0, 1]
  rhsNonContracting := [1]
  lhsBatch := []
  rhsBatch := []
  wf := dot_S4x4096x64_S64x64_S4x4096x64_2_0_01_1_n_n_wf

class Facts : Prop extends Facts₀ where

variable [Facts]
-- ==== Proof.Spec.lean ====
/-
  A two-layer graph diffusion over the nodes of one image, as functions of indices.

  A batch element is a matrix X of N nodes by C channels. Two nodes n and m are adjacent when the cosine of
  their feature rows exceeds a threshold:
      nrm n      = sqrt (Σ_c X n c · X n c)
      corr n m   = (Σ_c X n c · X m c) / (nrm n · nrm m)
      adj n m    = 1 if corr n m > thr, else 0
      deg n      = Σ_m adj n m.
  One layer diffuses a feature matrix v along the normalised adjacency D^(-1/2) A D^(-1/2), projects it by a
  C × C weight matrix, normalises each row to mean zero and variance one, and clamps at zero.

  The same layer is written in two arrangements. In the first (suffix K) the factor d n = rsqrt (deg n) is applied
  to v before the sum over neighbours and once more to the sum, and the row is normalised by multiplying with
  rsqrt (var + eps). In the second (suffix R) the matrix entries ((adj n m · d n) · d m) are formed first with
  d n = 1 / sqrt (deg n), and the row is normalised by dividing by sqrt (var + eps). Everything is over the
  extended reals, with the conventions of the ideal float operations at zero and at the infinities.
-/
import Idealize.ShloMosaic.PureOps.Ideal

noncomputable section

namespace Gnn

open Idealize.ShloMosaic

/-- The adjacency threshold, the single-precision value nearest 0.005. -/
def thr : EReal := Ideal.ofBits .f32 0x3BA3D70A#32
/-- The row length 64 as a float. -/
def c64 : EReal := Ideal.ofBits .f32 0x42800000#32
/-- The variance offset, the single-precision value nearest 1e-5. -/
def eps : EReal := Ideal.ofBits .f32 0x3727C5AC#32
/-- The float one. -/
def one : EReal := Ideal.ofBits .f32 0x3F800000#32

/-- A one-bit truth value as the number 0 or 1. -/
def ind (b : BitVec 1) : EReal := ((b.toNat : ℝ) : EReal)

variable {N C : ℕ}

/-- The Euclidean norm of row n. -/
def nrm (X : Fin N → Fin C → EReal) (n : Fin N) : EReal := Ideal.sqrt (∑ c : Fin C, X n c * X n c)

/-- The cosine of rows n and m. -/
def corr (X : Fin N → Fin C → EReal) (n m : Fin N) : EReal :=
  Ideal.div (∑ c : Fin C, X n c * X m c) (nrm X n * nrm X m)

/-- The adjacency indicator: 1 where the cosine exceeds the threshold. -/
def adj (X : Fin N → Fin C → EReal) (n m : Fin N) : EReal := ind (Ideal.cmp .ogt (corr X n m) thr)

/-- The degree of node n. -/
def deg (X : Fin N → Fin C → EReal) (n : Fin N) : EReal := ∑ m : Fin N, adj X n m

/-- The inverse square root of the degree, as one operation. -/
def dK (X : Fin N → Fin C → EReal) (n : Fin N) : EReal := Ideal.rsqrt (deg X n)

/-- The inverse square root of the degree, as one over the square root. -/
def dR (X : Fin N → Fin C → EReal) (n : Fin N) : EReal := Ideal.div one (Ideal.sqrt (deg X n))

/-- Diffusion, scaling the features first and the neighbour sum afterwards. -/
def lapK (X v : Fin N → Fin C → EReal) (n : Fin N) (c : Fin C) : EReal :=
  dK X n * ∑ m : Fin N, adj X n m * (dK X m * v m c)

/-- Diffusion, by the normalised adjacency matrix formed entry by entry. -/
def lapR (X v : Fin N → Fin C → EReal) (n : Fin N) (c : Fin C) : EReal :=
  ∑ m : Fin N, ((adj X n m * dR X n) * dR X m) * v m c

/-- The projection of each row by the weight matrix. -/
def proj (l : Fin N → Fin C → EReal) (W : Fin C → Fin C → EReal) (n : Fin N) (f : Fin C) : EReal :=
  ∑ c : Fin C, l n c * W c f

/-- The mean of row n. -/
def mean (h : Fin N → Fin C → EReal) (n : Fin N) : EReal := Ideal.div (∑ f : Fin C, h n f) c64

/-- Row n with its mean removed. -/
def cen (h : Fin N → Fin C → EReal) (n : Fin N) (f : Fin C) : EReal := h n f - mean h n

/-- The variance of row n. -/
def var (h : Fin N → Fin C → EReal) (n : Fin N) : EReal := Ideal.div (∑ f : Fin C, cen h n f * cen h n f) c64

/-- Row normalisation and clamp, multiplying by the inverse square root. -/
def inK (h : Fin N → Fin C → EReal) (n : Fin N) (f : Fin C) : EReal :=
  max (cen h n f * Ideal.rsqrt (var h n + eps)) 0

/-- Row normalisation and clamp, dividing by the square root. -/
def inR (h : Fin N → Fin C → EReal) (n : Fin N) (f : Fin C) : EReal :=
  max (Ideal.div (cen h n f) (Ideal.sqrt (var h n + eps))) 0

/-- One layer, first arrangement. -/
def layerK (X v : Fin N → Fin C → EReal) (W : Fin C → Fin C → EReal) : Fin N → Fin C → EReal :=
  inK (proj (lapK X v) W)

/-- One layer, second arrangement. -/
def layerR (X v : Fin N → Fin C → EReal) (W : Fin C → Fin C → EReal) : Fin N → Fin C → EReal :=
  inR (proj (lapR X v) W)

/-- Two layers on the adjacency of X, first arrangement. -/
def outK (X : Fin N → Fin C → EReal) (W0 W1 : Fin C → Fin C → EReal) : Fin N → Fin C → EReal :=
  layerK X (layerK X X W0) W1

/-- Two layers on the adjacency of X, second arrangement. -/
def outR (X : Fin N → Fin C → EReal) (W0 W1 : Fin C → Fin C → EReal) : Fin N → Fin C → EReal :=
  layerR X (layerR X X W0) W1

end Gnn

end
-- ==== Proof.RefValue.lean ====
/-
  The reference's result read at an index: two layers of the second arrangement on the node features.

  Fix an image b and write X n c for the node features of that image. Reading the reference one operation at a
  time, every intermediate array at an index of image b is one of the index functions of the specification:
  the row norms are nrm X, the cosine matrix corr X, the thresholded matrix adj X, its row sums deg X, their
  inverse square roots dR X, the scaled matrix (adj X n m * dR X n) * dR X m, its product with the features
  lapR X X, the projection proj, and the row normalisation followed by the clamp inR. The second layer repeats
  the last four steps on the first layer's result with the second weight matrix.
-/
import proofs.«168937_j24618752540869_1_alg».proof.Proof.RefRead
import proofs.«168937_j24618752540869_1_alg».proof.Proof.Spec
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx

/-! ## Index arithmetic

Each layout operation and each sum reads its operand at an index computed from the result's index; at an index
given by its coordinates the computed index is again given by coordinates. -/

/-- Two rank-three indices with equal coordinates are equal. -/
local macro "coords3" : tactic =>
  `(tactic| exact funext fun a => Fin.ext (by match a with | ⟨0, _⟩ => rfl | ⟨1, _⟩ => rfl | ⟨2, _⟩ => rfl))
/-- Two rank-two indices with equal coordinates are equal. -/
local macro "coords2" : tactic =>
  `(tactic| exact funext fun a => Fin.ext (by match a with | ⟨0, _⟩ => rfl | ⟨1, _⟩ => rfl))

private theorem i3 (b : Fin 4) (n : Fin 4096) (k : Fin 64) : idx_main_v3 (ix2 b n) k = ix3 b n k := by coords3
private theorem i4 (b : Fin 4) (n : Fin 4096) : idx_main_v4 (ix3 b n (0 : Fin 1)) = ix2 b n := by coords2
private theorem i6l (b : Fin 4) (n m : Fin 4096) (k : Fin 64) : lidx_main_v6 (ix3 b n m) k = ix3 b n k := by coords3
private theorem i6r (b : Fin 4) (n m : Fin 4096) (k : Fin 64) : ridx_main_v6 (ix3 b n m) k = ix3 b m k := by coords3
private theorem i7 (b : Fin 4) (m : Fin 4096) : idx_main_v7 (ix3 b (0 : Fin 1) m) = ix3 b m (0 : Fin 1) := by coords3
private theorem i8 (b : Fin 4) (n m : Fin 4096) : idx_main_v8 (ix3 b n m) = ix3 b n (0 : Fin 1) := by coords3
private theorem i9 (b : Fin 4) (n m : Fin 4096) : idx_main_v9 (ix3 b n m) = ix3 b (0 : Fin 1) m := by coords3
private theorem i15 (b : Fin 4) (n m : Fin 4096) : idx_main_v15 (ix2 b n) m = ix3 b n m := by coords3
private theorem i19 (b : Fin 4) (n : Fin 4096) : idx_main_v19 (ix3 b n (0 : Fin 1)) = ix2 b n := by coords2
private theorem i20 (b : Fin 4) (n m : Fin 4096) : idx_main_v20 (ix3 b n m) = ix3 b n (0 : Fin 1) := by coords3
private theorem i22 (b : Fin 4) (m : Fin 4096) : idx_main_v22 (ix3 b (0 : Fin 1) m) = ix2 b m := by coords2
private theorem i23 (b : Fin 4) (n m : Fin 4096) : idx_main_v23 (ix3 b n m) = ix3 b (0 : Fin 1) m := by coords3
private theorem i25l (b : Fin 4) (n m : Fin 4096) (c : Fin 64) : lidx_main_v25 (ix3 b n c) m = ix3 b n m := by coords3
private theorem i25r (b : Fin 4) (n m : Fin 4096) (c : Fin 64) : ridx_main_v25 (ix3 b n c) m = ix3 b m c := by coords3
/-- A 64 by 64 matrix is its flat reading with a leading axis of length one: (c * 64 + f) / 64 = c, (c * 64 + f) % 64 = f. -/
private theorem i26 (c f : Fin 64) : idx_main_v26 (ix2 c f) = ix3 (0 : Fin 1) c f :=
  funext fun a => Fin.ext (by
    have hc := c.isLt
    have hf := f.isLt
    match a with
    | ⟨0, _⟩ => rfl
    | ⟨1, _⟩ => show (c.val * 64 + f.val) / 64 % 64 = c.val; omega
    | ⟨2, _⟩ => show (c.val * 64 + f.val) % 64 = f.val; omega)
private theorem i27l (b : Fin 4) (n : Fin 4096) (c f : Fin 64) : lidx_main_v27 (ix3 b n f) c = ix3 b n c := by coords3
private theorem i27r (b : Fin 4) (n : Fin 4096) (c f : Fin 64) : ridx_main_v27 (ix3 b n f) c = ix2 c f := by coords2
private theorem i28 (b : Fin 4) (n : Fin 4096) (f : Fin 64) : idx_main_v28 (ix2 b n) f = ix3 b n f := by coords3
private theorem i29 (b : Fin 4) (n : Fin 4096) : idx_main_v29 (ix3 b n (0 : Fin 1)) = ix2 b n := by coords2
private theorem i32 (b : Fin 4) (n : Fin 4096) (f : Fin 64) : idx_main_v32 (ix3 b n f) = ix3 b n (0 : Fin 1) := by coords3
private theorem i35 (b : Fin 4) (n : Fin 4096) (f : Fin 64) : idx_main_v35 (ix2 b n) f = ix3 b n f := by coords3
private theorem i36 (b : Fin 4) (n : Fin 4096) : idx_main_v36 (ix3 b n (0 : Fin 1)) = ix2 b n := by coords2
private theorem i39 (b : Fin 4) (n : Fin 4096) (f : Fin 64) : idx_main_v39 (ix3 b n f) = ix3 b n (0 : Fin 1) := by coords3
private theorem i44 (b : Fin 4) (n : Fin 4096) (f : Fin 64) : idx_main_v44 (ix3 b n f) = ix3 b n (0 : Fin 1) := by coords3
private theorem i47l (b : Fin 4) (n m : Fin 4096) (c : Fin 64) : lidx_main_v47 (ix3 b n c) m = ix3 b n m := by coords3
private theorem i47r (b : Fin 4) (n m : Fin 4096) (c : Fin 64) : ridx_main_v47 (ix3 b n c) m = ix3 b m c := by coords3
private theorem i48 (c f : Fin 64) : idx_main_v48 (ix2 c f) = ix3 (0 : Fin 1) c f :=
  funext fun a => Fin.ext (by
    have hc := c.isLt
    have hf := f.isLt
    match a with
    | ⟨0, _⟩ => rfl
    | ⟨1, _⟩ => show (c.val * 64 + f.val) / 64 % 64 = c.val; omega
    | ⟨2, _⟩ => show (c.val * 64 + f.val) % 64 = f.val; omega)
private theorem i49l (b : Fin 4) (n : Fin 4096) (c f : Fin 64) : lidx_main_v49 (ix3 b n f) c = ix3 b n c := by coords3
private theorem i49r (b : Fin 4) (n : Fin 4096) (c f : Fin 64) : ridx_main_v49 (ix3 b n f) c = ix2 c f := by coords2
private theorem i50 (b : Fin 4) (n : Fin 4096) (f : Fin 64) : idx_main_v50 (ix2 b n) f = ix3 b n f := by coords3
private theorem i51 (b : Fin 4) (n : Fin 4096) : idx_main_v51 (ix3 b n (0 : Fin 1)) = ix2 b n := by coords2
private theorem i54 (b : Fin 4) (n : Fin 4096) (f : Fin 64) : idx_main_v54 (ix3 b n f) = ix3 b n (0 : Fin 1) := by coords3
private theorem i57 (b : Fin 4) (n : Fin 4096) (f : Fin 64) : idx_main_v57 (ix2 b n) f = ix3 b n f := by coords3
private theorem i58 (b : Fin 4) (n : Fin 4096) : idx_main_v58 (ix3 b n (0 : Fin 1)) = ix2 b n := by coords2
private theorem i61 (b : Fin 4) (n : Fin 4096) (f : Fin 64) : idx_main_v61 (ix3 b n f) = ix3 b n (0 : Fin 1) := by coords3
private theorem i66 (b : Fin 4) (n : Fin 4096) (f : Fin 64) : idx_main_v66 (ix3 b n f) = ix3 b n (0 : Fin 1) := by coords3

/-! ## The adjacency of one image -/

section Stages

variable (x0 : (⟨S4x64x64x64, .f32⟩ : BufTy).Contents (Elt Ideal)) (x1 x2 : (⟨S1x64x64, .f32⟩ : BufTy).Contents (Elt Ideal))
  (b : Fin 4)

/-- The node features of image b as a matrix of nodes by channels. -/
private def X : Fin 4096 → Fin 64 → EReal := fun n c => val_main_v1 (F := Ideal) x0 (ix3 b n c)

/-- The squared length of row n: the sum of squares with initial value zero. -/
private theorem v3_eq (n : Fin 4096) :
    val_main_v3 (F := Ideal) x0 (ix2 b n) = ∑ c : Fin 64, X x0 b n c * X x0 b n c := by
  rw [val_main_v3_apply, val_main_cst_apply, Ideal.ofBits_def, Ideal.ofBits_zero_f32, zero_add]
  refine Finset.sum_congr rfl fun c _ => ?_
  rw [i3, val_main_v2_apply, Ideal.mulf_def]
  rfl

/-- The row norm. -/
private theorem v5_eq (n : Fin 4096) :
    val_main_v5 (F := Ideal) x0 (ix3 b n (0 : Fin 1)) = Gnn.nrm (X x0 b) n := by
  rw [val_main_v5_apply, Ideal.hostUnary_sqrt_def, val_main_v4_apply, i4, v3_eq]
  rfl

/-- The Gram matrix: the inner product of rows n and m. -/
private theorem v6_eq (n m : Fin 4096) :
    val_main_v6 (F := Ideal) x0 (ix3 b n m) = ∑ c : Fin 64, X x0 b n c * X x0 b m c := by
  rw [val_main_v6_apply]
  refine Finset.sum_congr rfl fun c _ => ?_
  rw [i6l, i6r]
  rfl

/-- The cosine of rows n and m: the inner product over the product of the norms. -/
private theorem v11_eq (n m : Fin 4096) :
    val_main_v11 (F := Ideal) x0 (ix3 b n m) = Gnn.corr (X x0 b) n m := by
  rw [val_main_v11_apply, Ideal.hostDivf_def, v6_eq, val_main_v10_apply, Ideal.mulf_def,
    val_main_v8_apply, i8, v5_eq, val_main_v9_apply, i9, val_main_v7_apply, i7, v5_eq]
  rfl

/-- The adjacency indicator: the comparison with the threshold, read as the number 0 or 1. -/
private theorem v14_eq (n m : Fin 4096) :
    val_main_v14 (F := Ideal) x0 (ix3 b n m) = Gnn.adj (X x0 b) n m := by
  rw [val_main_v14_apply, val_main_v13_apply, v11_eq, val_main_v12_apply, val_main_cst_0_apply]
  rfl

/-- The degree: the row sum of the adjacency with initial value zero. -/
private theorem v15_eq (n : Fin 4096) :
    val_main_v15 (F := Ideal) x0 (ix2 b n) = Gnn.deg (X x0 b) n := by
  rw [val_main_v15_apply, val_main_cst_1_apply, Ideal.ofBits_def, Ideal.ofBits_zero_f32, zero_add]
  show _ = ∑ m : Fin 4096, Gnn.adj (X x0 b) n m
  refine Finset.sum_congr rfl fun m _ => ?_
  rw [i15, v14_eq]

/-- One over the square root of the degree. -/
private theorem v18_eq (n : Fin 4096) :
    val_main_v18 (F := Ideal) x0 (ix2 b n) = Gnn.dR (X x0 b) n := by
  rw [val_main_v18_apply, Ideal.hostDivf_def, val_main_v17_apply, val_main_cst_2_apply, val_main_v16_apply,
    Ideal.hostUnary_sqrt_def, v15_eq]
  rfl

/-- The normalised adjacency, formed entry by entry: first the row factor, then the column factor. -/
private theorem v24_eq (n m : Fin 4096) :
    val_main_v24 (F := Ideal) x0 (ix3 b n m)
      = (Gnn.adj (X x0 b) n m * Gnn.dR (X x0 b) n) * Gnn.dR (X x0 b) m := by
  rw [val_main_v24_apply, Ideal.mulf_def, val_main_v21_apply, Ideal.mulf_def, v14_eq,
    val_main_v20_apply, i20, val_main_v19_apply, i19, v18_eq,
    val_main_v23_apply, i23, val_main_v22_apply, i22, v18_eq]

/-! ## The first layer -/

/-- Diffusion of the features along the normalised adjacency. -/
private theorem v25_eq (n : Fin 4096) (c : Fin 64) :
    val_main_v25 (F := Ideal) x0 (ix3 b n c) = Gnn.lapR (X x0 b) (X x0 b) n c := by
  rw [val_main_v25_apply]
  show _ = ∑ m : Fin 4096, ((Gnn.adj (X x0 b) n m * Gnn.dR (X x0 b) n) * Gnn.dR (X x0 b) m) * X x0 b m c
  refine Finset.sum_congr rfl fun m _ => ?_
  rw [i25l, i25r, v24_eq]
  rfl

/-- The first weight matrix, its leading axis of length one dropped. -/
private theorem v26_eq (c f : Fin 64) :
    val_main_v26 (F := Ideal) x1 (ix2 c f) = x1 (ix3 (0 : Fin 1) c f) := by
  rw [val_main_v26_apply, i26]

/-- The projection of the diffused features, as a matrix of nodes by features. -/
private def H1 : Fin 4096 → Fin 64 → EReal := fun n f => val_main_v27 (F := Ideal) x0 x1 (ix3 b n f)

private theorem H1_eq :
    H1 x0 x1 b = Gnn.proj (Gnn.lapR (X x0 b) (X x0 b)) (fun c f => x1 (ix3 (0 : Fin 1) c f)) := by
  funext n f
  show val_main_v27 (F := Ideal) x0 x1 (ix3 b n f)
    = ∑ c : Fin 64, Gnn.lapR (X x0 b) (X x0 b) n c * x1 (ix3 (0 : Fin 1) c f)
  rw [val_main_v27_apply]
  refine Finset.sum_congr rfl fun c _ => ?_
  rw [i27l, i27r, v25_eq, v26_eq]

/-- The row sum of the projection. -/
private theorem v28_eq (n : Fin 4096) :
    val_main_v28 (F := Ideal) x0 x1 (ix2 b n) = ∑ f : Fin 64, H1 x0 x1 b n f := by
  rw [val_main_v28_apply, val_main_cst_3_apply, Ideal.ofBits_def, Ideal.ofBits_zero_f32, zero_add]
  refine Finset.sum_congr rfl fun f _ => ?_
  rw [i28]
  rfl

/-- The row mean. -/
private theorem v31_eq (n : Fin 4096) :
    val_main_v31 (F := Ideal) x0 x1 (ix3 b n (0 : Fin 1)) = Gnn.mean (H1 x0 x1 b) n := by
  rw [val_main_v31_apply, Ideal.hostDivf_def, val_main_v29_apply, i29, v28_eq, val_main_v30_apply,
    val_main_cst_4_apply]
  rfl

/-- The centred row, as the variance reads it. -/
private theorem v33_eq (n : Fin 4096) (f : Fin 64) :
    val_main_v33 (F := Ideal) x0 x1 (ix3 b n f) = Gnn.cen (H1 x0 x1 b) n f := by
  rw [val_main_v33_apply, Ideal.subf_def, val_main_v32_apply, i32, v31_eq]
  rfl

/-- The sum of squares of the centred row. -/
private theorem v35_eq (n : Fin 4096) :
    val_main_v35 (F := Ideal) x0 x1 (ix2 b n)
      = ∑ f : Fin 64, Gnn.cen (H1 x0 x1 b) n f * Gnn.cen (H1 x0 x1 b) n f := by
  rw [val_main_v35_apply, val_main_cst_5_apply, Ideal.ofBits_def, Ideal.ofBits_zero_f32, zero_add]
  refine Finset.sum_congr rfl fun f _ => ?_
  rw [i35, val_main_v34_apply, Ideal.mulf_def, v33_eq]

/-- The row variance. -/
private theorem v38_eq (n : Fin 4096) :
    val_main_v38 (F := Ideal) x0 x1 (ix3 b n (0 : Fin 1)) = Gnn.var (H1 x0 x1 b) n := by
  rw [val_main_v38_apply, Ideal.hostDivf_def, val_main_v36_apply, i36, v35_eq, val_main_v37_apply,
    val_main_cst_6_apply]
  rfl

/-- The centred row, as the quotient reads it. -/
private theorem v40_eq (n : Fin 4096) (f : Fin 64) :
    val_main_v40 (F := Ideal) x0 x1 (ix3 b n f) = Gnn.cen (H1 x0 x1 b) n f := by
  rw [val_main_v40_apply, Ideal.subf_def, val_main_v39_apply, i39, v31_eq]
  rfl

/-- The square root of the offset variance. -/
private theorem v43_eq (n : Fin 4096) :
    val_main_v43 (F := Ideal) x0 x1 (ix3 b n (0 : Fin 1))
      = Ideal.sqrt (Gnn.var (H1 x0 x1 b) n + Gnn.eps) := by
  rw [val_main_v43_apply, Ideal.hostUnary_sqrt_def, val_main_v42_apply, Ideal.addf_def, v38_eq,
    val_main_v41_apply, val_main_cst_7_apply]
  rfl

/-- The normalised row clamped at zero. -/
private theorem v46_eq (n : Fin 4096) (f : Fin 64) :
    val_main_v46 (F := Ideal) x0 x1 (ix3 b n f) = Gnn.inR (H1 x0 x1 b) n f := by
  rw [val_main_v46_apply, Ideal.maximumf_def, val_main_v45_apply, Ideal.hostDivf_def, v40_eq,
    val_main_v44_apply, i44, v43_eq, val_main_call0_v0_apply, val_main_call0_cst_apply, Ideal.ofBits_def,
    Ideal.ofBits_zero_f32]
  rfl

/-- The first layer's result, as a matrix of nodes by features. -/
private def L1 : Fin 4096 → Fin 64 → EReal := fun n f => val_main_v46 (F := Ideal) x0 x1 (ix3 b n f)

private theorem L1_eq :
    L1 x0 x1 b = Gnn.layerR (X x0 b) (X x0 b) (fun c f => x1 (ix3 (0 : Fin 1) c f)) := by
  funext n f
  show val_main_v46 (F := Ideal) x0 x1 (ix3 b n f) = _
  rw [v46_eq, H1_eq]
  rfl

/-! ## The second layer -/

/-- Diffusion of the first layer's result along the same normalised adjacency. -/
private theorem v47_eq (n : Fin 4096) (c : Fin 64) :
    val_main_v47 (F := Ideal) x0 x1 (ix3 b n c) = Gnn.lapR (X x0 b) (L1 x0 x1 b) n c := by
  rw [val_main_v47_apply]
  show _ = ∑ m : Fin 4096, ((Gnn.adj (X x0 b) n m * Gnn.dR (X x0 b) n) * Gnn.dR (X x0 b) m) * L1 x0 x1 b m c
  refine Finset.sum_congr rfl fun m _ => ?_
  rw [i47l, i47r, v24_eq]
  rfl

/-- The second weight matrix, its leading axis of length one dropped. -/
private theorem v48_eq (c f : Fin 64) :
    val_main_v48 (F := Ideal) x2 (ix2 c f) = x2 (ix3 (0 : Fin 1) c f) := by
  rw [val_main_v48_apply, i48]

/-- The second projection, as a matrix of nodes by features. -/
private def H2 : Fin 4096 → Fin 64 → EReal := fun n f => val_main_v49 (F := Ideal) x0 x1 x2 (ix3 b n f)

private theorem H2_eq :
    H2 x0 x1 x2 b = Gnn.proj (Gnn.lapR (X x0 b) (L1 x0 x1 b)) (fun c f => x2 (ix3 (0 : Fin 1) c f)) := by
  funext n f
  show val_main_v49 (F := Ideal) x0 x1 x2 (ix3 b n f)
    = ∑ c : Fin 64, Gnn.lapR (X x0 b) (L1 x0 x1 b) n c * x2 (ix3 (0 : Fin 1) c f)
  rw [val_main_v49_apply]
  refine Finset.sum_congr rfl fun c _ => ?_
  rw [i49l, i49r, v47_eq, v48_eq]

/-- The row sum of the second projection. -/
private theorem v50_eq (n : Fin 4096) :
    val_main_v50 (F := Ideal) x0 x1 x2 (ix2 b n) = ∑ f : Fin 64, H2 x0 x1 x2 b n f := by
  rw [val_main_v50_apply, val_main_cst_8_apply, Ideal.ofBits_def, Ideal.ofBits_zero_f32, zero_add]
  refine Finset.sum_congr rfl fun f _ => ?_
  rw [i50]
  rfl

/-- Its row mean. -/
private theorem v53_eq (n : Fin 4096) :
    val_main_v53 (F := Ideal) x0 x1 x2 (ix3 b n (0 : Fin 1)) = Gnn.mean (H2 x0 x1 x2 b) n := by
  rw [val_main_v53_apply, Ideal.hostDivf_def, val_main_v51_apply, i51, v50_eq, val_main_v52_apply,
    val_main_cst_9_apply]
  rfl

/-- Its centred row, as the variance reads it. -/
private theorem v55_eq (n : Fin 4096) (f : Fin 64) :
    val_main_v55 (F := Ideal) x0 x1 x2 (ix3 b n f) = Gnn.cen (H2 x0 x1 x2 b) n f := by
  rw [val_main_v55_apply, Ideal.subf_def, val_main_v54_apply, i54, v53_eq]
  rfl

/-- The sum of squares of its centred row. -/
private theorem v57_eq (n : Fin 4096) :
    val_main_v57 (F := Ideal) x0 x1 x2 (ix2 b n)
      = ∑ f : Fin 64, Gnn.cen (H2 x0 x1 x2 b) n f * Gnn.cen (H2 x0 x1 x2 b) n f := by
  rw [val_main_v57_apply, val_main_cst_10_apply, Ideal.ofBits_def, Ideal.ofBits_zero_f32, zero_add]
  refine Finset.sum_congr rfl fun f _ => ?_
  rw [i57, val_main_v56_apply, Ideal.mulf_def, v55_eq]

/-- Its row variance. -/
private theorem v60_eq (n : Fin 4096) :
    val_main_v60 (F := Ideal) x0 x1 x2 (ix3 b n (0 : Fin 1)) = Gnn.var (H2 x0 x1 x2 b) n := by
  rw [val_main_v60_apply, Ideal.hostDivf_def, val_main_v58_apply, i58, v57_eq, val_main_v59_apply,
    val_main_cst_11_apply]
  rfl

/-- Its centred row, as the quotient reads it. -/
private theorem v62_eq (n : Fin 4096) (f : Fin 64) :
    val_main_v62 (F := Ideal) x0 x1 x2 (ix3 b n f) = Gnn.cen (H2 x0 x1 x2 b) n f := by
  rw [val_main_v62_apply, Ideal.subf_def, val_main_v61_apply, i61, v53_eq]
  rfl

/-- The square root of its offset variance. -/
private theorem v65_eq (n : Fin 4096) :
    val_main_v65 (F := Ideal) x0 x1 x2 (ix3 b n (0 : Fin 1))
      = Ideal.sqrt (Gnn.var (H2 x0 x1 x2 b) n + Gnn.eps) := by
  rw [val_main_v65_apply, Ideal.hostUnary_sqrt_def, val_main_v64_apply, Ideal.addf_def, v60_eq,
    val_main_v63_apply, val_main_cst_12_apply]
  rfl

/-- Its normalised row clamped at zero. -/
private theorem v68_eq (n : Fin 4096) (f : Fin 64) :
    val_main_v68 (F := Ideal) x0 x1 x2 (ix3 b n f) = Gnn.inR (H2 x0 x1 x2 b) n f := by
  rw [val_main_v68_apply, Ideal.maximumf_def, val_main_v67_apply, Ideal.hostDivf_def, v62_eq,
    val_main_v66_apply, i66, v65_eq, val_main_call1_v0_apply, val_main_call1_cst_apply, Ideal.ofBits_def,
    Ideal.ofBits_zero_f32]
  rfl

end Stages

/-- The reference's result at image b, node n, feature f. -/
theorem ref_apply (x0 : (⟨S4x64x64x64, .f32⟩ : BufTy).Contents (Elt Ideal)) (x1 x2 : (⟨S1x64x64, .f32⟩ : BufTy).Contents (Elt Ideal))
    (b : Fin 4) (n : Fin 4096) (f : Fin 64) :
    val_main_v68 (F := Ideal) x0 x1 x2 (ix3 b n f)
      = Gnn.outR (fun n c => val_main_v1 (F := Ideal) x0 (ix3 b n c)) (fun c f => x1 (ix3 (0 : Fin 1) c f)) (fun c f => x2 (ix3 (0 : Fin 1) c f)) n f := by
  rw [v68_eq, H2_eq, L1_eq]
  rfl

end Cert.ReferenceIdeal.RefValue

end
-- ==== Proof.Consts.lean ====
/-
  The four float literals of the specification as extended reals: one is 1, the row length is 64, and the
  variance offset is a positive real number (its exact value, 10995116 / 2^40, is never needed).
-/
import proofs.«168937_j24618752540869_1_alg».proof.Proof.Spec

noncomputable section

namespace Gnn

open Idealize.ShloMosaic

/-- The float one denotes the number one. -/
theorem one_eq : one = 1 := by
  unfold one; simp [Ideal.ofBits, Ideal.ieee, -EReal.coe_mul]; norm_num

/-- The float 64 denotes the real number 64. -/
theorem c64_eq : c64 = ((64 : ℝ) : EReal) := by
  unfold c64; simp [Ideal.ofBits, Ideal.ieee, -EReal.coe_mul]; norm_num

/-- The variance offset denotes a positive real number. -/
theorem eps_pos : ∃ r : ℝ, 0 < r ∧ eps = (r : EReal) := by
  refine ⟨10995116 / 2 ^ 40, by norm_num, ?_⟩
  unfold eps; simp [Ideal.ofBits, Ideal.ieee, -EReal.coe_mul]; norm_num

end Gnn

end
-- ==== Proof.Algebra.lean ====
/-
  The two arrangements of the layer agree on the extended reals.

  The adjacency entries are 0 or 1, so the degree of a node is either 0 (no neighbour at all) or a positive
  real number. In the first case every term of both diffusion sums carries a factor 0; in the second the factor
  rsqrt (deg n) is a positive real number, and a nonnegative real factor distributes over a finite sum of
  extended reals. The variance plus the offset is positive, and for a positive b multiplying by rsqrt b is
  dividing by sqrt b, at ⊤ as well.
-/
import proofs.«168937_j24618752540869_1_alg».proof.Proof.Spec
import proofs.«168937_j24618752540869_1_alg».proof.Proof.Consts
import Mathlib.Data.EReal.Basic
import Mathlib.Data.EReal.Operations
import Mathlib.Data.EReal.Inv
import Mathlib.Analysis.Real.Sqrt
import Mathlib.Algebra.Order.BigOperators.Group.Finset

noncomputable section

namespace Gnn

open Idealize.ShloMosaic

variable {N C : ℕ}

/-- The coercion of a finite sum of reals is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over a finite sum of extended reals. -/
private theorem coe_mul_sum {ι : Type*} (s : Finset ι) {d : ℝ} (hd : 0 ≤ d) (f : ι → EReal) :
    (d : EReal) * ∑ i ∈ s, f i = ∑ i ∈ s, (d : EReal) * f i := by
  classical
  induction s using Finset.induction_on with
  | empty => simp
  | insert a s ha ih =>
    rw [Finset.sum_insert ha, Finset.sum_insert ha,
      EReal.left_distrib_of_nonneg_of_ne_top (EReal.coe_nonneg.2 hd) (EReal.coe_ne_top d), ih]

/-- A square is nonnegative. -/
private theorem mul_self_nonneg' (x : EReal) : 0 ≤ x * x := by
  rcases le_total 0 x with h | h
  · exact EReal.mul_nonneg_iff.2 (Or.inl ⟨h, h⟩)
  · exact EReal.mul_nonneg_iff.2 (Or.inr ⟨h, h⟩)

/-- For a positive b, multiplying by the inverse square root of b is dividing by its square root. -/
private theorem mul_rsqrt_eq_div (a : EReal) {b : EReal} (hb : 0 < b) :
    a * Ideal.rsqrt b = Ideal.div a (Ideal.sqrt b) := by
  induction b using EReal.rec with
  | bot => exact absurd hb not_lt_bot
  | coe r =>
    have hr : 0 < r := EReal.coe_pos.1 hb
    have hs : Real.sqrt r ≠ 0 := (Real.sqrt_pos.2 hr).ne'
    rw [Ideal.rsqrt_coe, Ideal.sqrt_coe, if_neg (not_lt.2 hr.le), if_neg hr.ne', if_neg (not_lt.2 hr.le),
      Ideal.div_coe hs, one_div]
  | top =>
    rw [Ideal.rsqrt_top, Ideal.sqrt_top, Ideal.div, if_neg EReal.top_ne_zero, EReal.inv_top]

/-- Either node n has no neighbour, or its degree is a positive real number. -/
private theorem deg_cases (X : Fin N → Fin C → EReal) (n : Fin N) :
    (∀ m, adj X n m = 0) ∨ ∃ r : ℝ, 0 < r ∧ deg X n = (r : EReal) := by
  let t : Fin N → ℝ := fun m => ((Ideal.cmp .ogt (corr X n m) thr).toNat : ℝ)
  have hadj : ∀ m, adj X n m = ((t m : ℝ) : EReal) := fun m => rfl
  have hdeg : deg X n = ((∑ m, t m : ℝ) : EReal) := by
    rw [coe_sum]; rfl
  have hnn : ∀ m ∈ Finset.univ, 0 ≤ t m := fun m _ => Nat.cast_nonneg _
  rcases (Finset.sum_nonneg hnn).eq_or_lt with h0 | hpos
  · left
    intro m
    have := (Finset.sum_eq_zero_iff_of_nonneg hnn).1 h0.symm m (Finset.mem_univ m)
    rw [hadj, this, EReal.coe_zero]
  · right
    exact ⟨_, hpos, hdeg⟩

/-- The two forms of the inverse square root of the degree agree. -/
private theorem dK_eq_dR (X : Fin N → Fin C → EReal) (n : Fin N) : dK X n = dR X n := by
  unfold dK dR
  rcases deg_cases X n with h0 | ⟨r, hr, hdeg⟩
  · have hd : deg X n = ((0 : ℝ) : EReal) := by
      rw [EReal.coe_zero]; exact Finset.sum_eq_zero fun m _ => h0 m
    rw [hd, one_eq, Ideal.rsqrt_coe, Ideal.sqrt_coe]
    simp [Ideal.div]
  · rw [hdeg, ← mul_rsqrt_eq_div _ (EReal.coe_pos.2 hr), one_eq, one_mul]

/-- The two diffusions agree. -/
private theorem lapK_eq_lapR (X v : Fin N → Fin C → EReal) : lapK X v = lapR X v := by
  funext n c
  unfold lapK lapR
  simp only [← dK_eq_dR]
  rcases deg_cases X n with h0 | ⟨r, hr, hdeg⟩
  · simp [h0]
  · have hd : dK X n = (((Real.sqrt r)⁻¹ : ℝ) : EReal) := by
      unfold dK; rw [hdeg, Ideal.rsqrt_coe, if_neg (not_lt.2 hr.le), if_neg hr.ne']
    rw [hd, coe_mul_sum _ (inv_nonneg.2 (Real.sqrt_nonneg r))]
    refine Finset.sum_congr rfl fun m _ => ?_
    ac_rfl

/-- The variance plus the offset is positive. -/
private theorem var_add_eps_pos (h : Fin N → Fin C → EReal) (n : Fin N) : 0 < var h n + eps := by
  obtain ⟨e, he, heq⟩ := eps_pos
  have hs : 0 ≤ ∑ f : Fin C, cen h n f * cen h n f := Finset.sum_nonneg fun f _ => mul_self_nonneg' _
  have hv : 0 ≤ var h n := by
    unfold var
    rw [c64_eq, Ideal.div_coe (by norm_num : (64 : ℝ) ≠ 0)]
    exact EReal.mul_nonneg hs (EReal.coe_nonneg.2 (by norm_num))
  rw [heq]
  calc (0 : EReal) < (e : EReal) := EReal.coe_pos.2 he
    _ ≤ var h n + e := le_add_of_nonneg_left hv

/-- The two row normalisations agree. -/
private theorem inK_eq_inR (h : Fin N → Fin C → EReal) : inK h = inR h := by
  funext n f
  unfold inK inR
  rw [mul_rsqrt_eq_div _ (var_add_eps_pos h n)]

/-- One layer in the first arrangement equals one layer in the second. -/
private theorem layerK_eq_layerR (X v : Fin N → Fin C → EReal) (W : Fin C → Fin C → EReal) :
    layerK X v W = layerR X v W := by
  unfold layerK layerR
  rw [lapK_eq_lapR, inK_eq_inR]

/-- Two layers in the first arrangement equal two layers in the second. -/
theorem outK_eq_outR (X : Fin N → Fin C → EReal) (W0 W1 : Fin C → Fin C → EReal) : outK X W0 W1 = outR X W0 W1 := by
  unfold outK outR
  rw [layerK_eq_layerR, layerK_eq_layerR]

end Gnn

end
-- ==== Proof.KernelTerm.lean ====
/-
  The kernel body's arithmetic, arranged by what it computes.

  The body works on one image: the node matrix x (4096 nodes by 64 channels) and the column nr of its row norms.
  The adjacency is never held whole: it is recomputed in eight column tiles of 512 nodes. For the tile that starts
  at node `off`,
      corrT off  (n, j) = (Σ_c x n c · x (off + j) c) / (nr n · nr (off + j))
      adjT  off  (n, j) = 1 if corrT off (n, j) exceeds the threshold, else 0
      degT  off  n      = Σ_j adjT off (n, j)                      (a tile's share of the degree)
      difT  off  (n, c) = Σ_j adjT off (n, j) · vs (off + j) c      (a tile's share of the diffusion of vs).
  The degree is zero plus the eight tiles' shares, in order; dis is its inverse square root. A diffusion of v is
  dis times (zero plus the eight tiles' shares of the diffusion of dis · v). A layer projects that by a weight matrix
  and normalises each row; the body is two layers, the second fed with dis times the first's result.

  `body_eq` says that what the generated frame names as the output buffer after the body is this arrangement.
-/
import proofs.«168937_j24618752540869_1_alg».proof.Proof.Gen.KernelIdeal.Frame

set_option maxRecDepth 16384

noncomputable section

namespace Cert.KernelIdeal.Tile

open Cert.KernelIdeal Cert.KernelIdeal.Gen Idealize.ShloMosaic

variable {F : FTy → Type} [FloatOps F]

/-- The image's node matrix: the loaded block with its leading unit axis dropped. -/
def xV (x0 : Vec F S1x4096x64 .f32) : FVec F S4096x64 .f32 :=
  shapeCast S4096x64 x0 shapeCasts_S1x4096x64_S4096x64

/-- The sum along each row, kept as a column. -/
def rowSum (h : FVec F S4096x64 .f32) : FVec F S4096x1 .f32 :=
  shapeCast S4096x1 (multiReduction .add [1] S4096 h 0x00000000#32 reduces_S4096x64_S4096 (.inl rfl) rfl) shapeCasts_S4096_S4096x1

/-- The column of row norms. -/
def nrV (x : FVec F S4096x64 .f32) : FVec F S4096x1 .f32 :=
  sqrt (rowSum (mulf x x))

/-- The cosines of every node against the 512 nodes from `off` on. -/
def corrT (off : ℕ) (h1 : S4096x64.Slices ![off, 0] S512x64) (h2 : S4096x1.Slices ![off, 0] S512x1)
    (x : FVec F S4096x64 .f32) (nr : FVec F S4096x1 .f32) : FVec F S4096x512 .f32 :=
  divf (matmul dot_S4096x64_S512x64_S4096x512_1_1_0_0_n_n (some .fp32) x (extractStridedSlice S512x64 ![off, 0] x h1) (constant S4096x512 .f32 0x00000000#32))
    (mulf (broadcastTo S4096x512 nr broadcasts_S4096x1_S4096x512)
      (broadcastTo S4096x512 (transpose S1x512 [1, 0] (extractStridedSlice S512x1 ![off, 0] nr h2) transposes_S512x1_p1_0_S1x512) broadcasts_S1x512_S4096x512))

/-- The indicator of a cosine tile exceeding the threshold, as floats. -/
def adjOf (cr : FVec F S4096x512 .f32) : FVec F S4096x512 .f32 :=
  sitofp .f32 (extui 32 (cmpf .ogt cr (broadcast S4096x512 (Scalar.ofBits .f32 0x3BA3D70A#32))) natLt_1_32)

/-- The adjacency tile. -/
def adjT (off : ℕ) (h1 : S4096x64.Slices ![off, 0] S512x64) (h2 : S4096x1.Slices ![off, 0] S512x1)
    (x : FVec F S4096x64 .f32) (nr : FVec F S4096x1 .f32) : FVec F S4096x512 .f32 :=
  adjOf (corrT off h1 h2 x nr)

/-- A tile's share of the degree. -/
def degT (off : ℕ) (h1 : S4096x64.Slices ![off, 0] S512x64) (h2 : S4096x1.Slices ![off, 0] S512x1)
    (x : FVec F S4096x64 .f32) (nr : FVec F S4096x1 .f32) : FVec F S4096x1 .f32 :=
  shapeCast S4096x1 (multiReduction .add [1] S4096 (adjT off h1 h2 x nr) 0x00000000#32 reduces_S4096x512_S4096 (.inl rfl) rfl) shapeCasts_S4096_S4096x1

/-- A tile's share of the diffusion of `vs`. -/
def difT (off : ℕ) (h1 : S4096x64.Slices ![off, 0] S512x64) (h2 : S4096x1.Slices ![off, 0] S512x1)
    (hv : S4096x64.Slices ![off, 0] S512x64)
    (x : FVec F S4096x64 .f32) (nr : FVec F S4096x1 .f32) (vs : FVec F S4096x64 .f32) : FVec F S4096x64 .f32 :=
  matmul dot_S4096x512_S512x64_S4096x64_1_0_0_1_n_n none (adjT off h1 h2 x nr) (extractStridedSlice S512x64 ![off, 0] vs hv) (constant S4096x64 .f32 0x00000000#32)

/-- The degree: zero plus the eight tiles' shares. -/
def degV (x : FVec F S4096x64 .f32) (nr : FVec F S4096x1 .f32) : FVec F S4096x1 .f32 :=
  addf (addf (addf (addf (addf (addf (addf (addf (broadcast S4096x1 (Scalar.ofBits .f32 0x00000000#32))
      (degT 0 slices_S4096x64_o0_0_S512x64 slices_S4096x1_o0_0_S512x1 x nr))
      (degT 512 slices_S4096x64_o512_0_S512x64 slices_S4096x1_o512_0_S512x1 x nr))
      (degT 1024 slices_S4096x64_o1024_0_S512x64 slices_S4096x1_o1024_0_S512x1 x nr))
      (degT 1536 slices_S4096x64_o1536_0_S512x64 slices_S4096x1_o1536_0_S512x1 x nr))
      (degT 2048 slices_S4096x64_o2048_0_S512x64 slices_S4096x1_o2048_0_S512x1 x nr))
      (degT 2560 slices_S4096x64_o2560_0_S512x64 slices_S4096x1_o2560_0_S512x1 x nr))
      (degT 3072 slices_S4096x64_o3072_0_S512x64 slices_S4096x1_o3072_0_S512x1 x nr))
      (degT 3584 slices_S4096x64_o3584_0_S512x64 slices_S4096x1_o3584_0_S512x1 x nr)

/-- The inverse square root of the degree. -/
def disV (x : FVec F S4096x64 .f32) (nr : FVec F S4096x1 .f32) : FVec F S4096x1 .f32 :=
  rsqrt (degV x nr)

/-- The adjacency applied to `vs`: zero plus the eight tiles' shares. -/
def diffV (x : FVec F S4096x64 .f32) (nr : FVec F S4096x1 .f32) (vs : FVec F S4096x64 .f32) : FVec F S4096x64 .f32 :=
  addf (addf (addf (addf (addf (addf (addf (addf (broadcast S4096x64 (Scalar.ofBits .f32 0x00000000#32))
      (difT 0 slices_S4096x64_o0_0_S512x64 slices_S4096x1_o0_0_S512x1 slices_S4096x64_o0_0_S512x64 x nr vs))
      (difT 512 slices_S4096x64_o512_0_S512x64 slices_S4096x1_o512_0_S512x1 slices_S4096x64_o512_0_S512x64 x nr vs))
      (difT 1024 slices_S4096x64_o1024_0_S512x64 slices_S4096x1_o1024_0_S512x1 slices_S4096x64_o1024_0_S512x64 x nr vs))
      (difT 1536 slices_S4096x64_o1536_0_S512x64 slices_S4096x1_o1536_0_S512x1 slices_S4096x64_o1536_0_S512x64 x nr vs))
      (difT 2048 slices_S4096x64_o2048_0_S512x64 slices_S4096x1_o2048_0_S512x1 slices_S4096x64_o2048_0_S512x64 x nr vs))
      (difT 2560 slices_S4096x64_o2560_0_S512x64 slices_S4096x1_o2560_0_S512x1 slices_S4096x64_o2560_0_S512x64 x nr vs))
      (difT 3072 slices_S4096x64_o3072_0_S512x64 slices_S4096x1_o3072_0_S512x1 slices_S4096x64_o3072_0_S512x64 x nr vs))
      (difT 3584 slices_S4096x64_o3584_0_S512x64 slices_S4096x1_o3584_0_S512x1 slices_S4096x64_o3584_0_S512x64 x nr vs)

/-- A column times every entry of its row. -/
def scaleV (d : FVec F S4096x1 .f32) (v : FVec F S4096x64 .f32) : FVec F S4096x64 .f32 :=
  mulf (broadcastTo S4096x64 d broadcasts_S4096x1_S4096x64) v

/-- The projection by a weight matrix given with a leading unit axis. -/
def projV (l : FVec F S4096x64 .f32) (w : Vec F S1x64x64 .f32) : FVec F S4096x64 .f32 :=
  matmul dot_S4096x64_S64x64_S4096x64_1_0_0_1_n_n none l (shapeCast S64x64 w shapeCasts_S1x64x64_S64x64) (constant S4096x64 .f32 0x00000000#32)

/-- The column of row means. -/
def meanV (h : FVec F S4096x64 .f32) : FVec F S4096x1 .f32 :=
  divf (rowSum h) (broadcast S4096x1 (Scalar.ofBits .f32 0x42800000#32))

/-- Each row with its mean removed. -/
def cenV (h : FVec F S4096x64 .f32) : FVec F S4096x64 .f32 :=
  subf h (broadcastTo S4096x64 (meanV h) broadcasts_S4096x1_S4096x64)

/-- The column of row variances. -/
def varV (h : FVec F S4096x64 .f32) : FVec F S4096x1 .f32 :=
  divf (rowSum (mulf (cenV h) (cenV h))) (broadcast S4096x1 (Scalar.ofBits .f32 0x42800000#32))

/-- Row normalisation and clamp at zero. -/
def normV (h : FVec F S4096x64 .f32) : FVec F S4096x64 .f32 :=
  maximumf (mulf (cenV h) (broadcastTo S4096x64 (rsqrt (addf (varV h) (broadcast S4096x1 (Scalar.ofBits .f32 0x3727C5AC#32)))) broadcasts_S4096x1_S4096x64))
    (broadcast S4096x64 (Scalar.ofBits .f32 0x00000000#32))

/-- One layer on already scaled features `vs`. -/
def layerV (x : FVec F S4096x64 .f32) (nr d : FVec F S4096x1 .f32) (vs : FVec F S4096x64 .f32) (w : Vec F S1x64x64 .f32) :
    FVec F S4096x64 .f32 :=
  normV (projV (scaleV d (diffV x nr vs)) w)

/-- The whole body: two layers, the result with its leading unit axis restored. -/
def bodyV (x0 : Vec F S1x4096x64 .f32) (w0 w1 : Vec F S1x64x64 .f32) : FVec F S1x4096x64 .f32 :=
  shapeCast S1x4096x64
    (layerV (xV x0) (nrV (xV x0)) (disV (xV x0) (nrV (xV x0)))
      (scaleV (disV (xV x0) (nrV (xV x0)))
        (layerV (xV x0) (nrV (xV x0)) (disV (xV x0) (nrV (xV x0))) (scaleV (disV (xV x0) (nrV (xV x0))) (xV x0)) w0)) w1)
    shapeCasts_S4096x64_S1x4096x64

set_option maxHeartbeats 4000000 in
/-- The output buffer after the body, as the generated frame names it, is the one whole-buffer store of `bodyV` of
    the three loaded blocks. -/
theorem body_eq (x0 : Vec F S1x4096x64 .f32) (x1 x2 : Vec F S1x64x64 .f32) :
    out0_3 x0 x1 x2 = View.canon [⟨r0_0, bodyV (View.ld x0 r0_0) (View.ld x1 r0_1) (View.ld x2 r0_1)⟩] := by
  unfold out0_3
  rfl

end Cert.KernelIdeal.Tile

end
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.KernelTiles.lean ====
/-
  The tiled adjacency of the kernel body read at an index.

  The kernel never holds the 4096 × 4096 adjacency whole: it recomputes it in eight column tiles of 512 nodes. Read at
  an entry (n, j), the tile that starts at node `off` is the adjacency indicator of the pair (n, off + j) of the
  specification: the Gram entry Σ_c x n c · x (off + j) c over the product of the two row norms, compared with the
  threshold. A tile's share of the degree is its row sum, a tile's share of a diffusion is its product with the
  matching 512 rows of the features; the eight shares, added in order to zero, are the sums over all 4096 nodes,
  because a sum over 4096 consecutive nodes is the sum of the eight sums over 512 consecutive nodes.
-/
import proofs.«168937_j24618752540869_1_alg».proof.Proof.KernelTerm
import proofs.«168937_j24618752540869_1_alg».proof.Proof.Spec
import proofs.«168937_j24618752540869_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- A 4096 × 64 array as a function of node and channel. -/
def mat (v : FVec Ideal S4096x64 .f32) : Fin 4096 → Fin 64 → EReal := fun n c => v (ix2 n c)

/-- A 4096 × 1 column as a function of the node. -/
def colv (d : FVec Ideal S4096x1 .f32) : Fin 4096 → EReal := fun n => d (ix2 n (0 : Fin 1))

/-- The node at position j of the tile that starts at `off`. -/
def nodeAt (off : ℕ) (hoff : off + 512 ≤ 4096) (j : Fin 512) : Fin 4096 := ⟨off + j.val, by have := j.isLt; omega⟩

/-! ## The Gram tile: a product contracting the channel axis of both operands -/

private theorem gram_lhs_0 (i : S4096x512.Idx) (q : dot_S4096x64_S512x64_S4096x512_1_1_0_0_n_n.contr.Idx) :
    (dot_S4096x64_S512x64_S4096x512_1_1_0_0_n_n.lhsIdx i q 0).val = (i 0).val := by
  unfold DotDims.lhsIdx
  rw [dif_neg (show ¬(0 : Fin S4096x64.rank) ∈ dot_S4096x64_S512x64_S4096x512_1_1_0_0_n_n.lhsBatch by decide), dif_pos (show (0 : Fin S4096x64.rank) ∈ dot_S4096x64_S512x64_S4096x512_1_1_0_0_n_n.lhsNonContracting by decide)]
  rfl
private theorem gram_lhs_1 (i : S4096x512.Idx) (q : dot_S4096x64_S512x64_S4096x512_1_1_0_0_n_n.contr.Idx) :
    (dot_S4096x64_S512x64_S4096x512_1_1_0_0_n_n.lhsIdx i q 1).val = (q ⟨0, by decide⟩).val :=
  dot_S4096x64_S512x64_S4096x512_1_1_0_0_n_n.lhsIdx_val_of_single rfl i q
private theorem gram_rhs_0 (i : S4096x512.Idx) (q : dot_S4096x64_S512x64_S4096x512_1_1_0_0_n_n.contr.Idx) :
    (dot_S4096x64_S512x64_S4096x512_1_1_0_0_n_n.rhsIdx i q 0).val = (i 1).val := by
  unfold DotDims.rhsIdx
  rw [dif_neg (show ¬(0 : Fin S512x64.rank) ∈ dot_S4096x64_S512x64_S4096x512_1_1_0_0_n_n.rhsBatch by decide), dif_pos (show (0 : Fin S512x64.rank) ∈ dot_S4096x64_S512x64_S4096x512_1_1_0_0_n_n.rhsNonContracting by decide)]
  rfl
private theorem gram_rhs_1 (i : S4096x512.Idx) (q : dot_S4096x64_S512x64_S4096x512_1_1_0_0_n_n.contr.Idx) :
    (dot_S4096x64_S512x64_S4096x512_1_1_0_0_n_n.rhsIdx i q 1).val = (q ⟨0, by decide⟩).val :=
  dot_S4096x64_S512x64_S4096x512_1_1_0_0_n_n.rhsIdx_val_of_single rfl i q

/-- The Gram product into the zero accumulator, at (n, j): the sum over the channels of the products. -/
private theorem gram_apply (x : FVec Ideal S4096x64 .f32) (y : FVec Ideal S512x64 .f32) (n : Fin 4096) (j : Fin 512) :
    matmul dot_S4096x64_S512x64_S4096x512_1_1_0_0_n_n (some .fp32) x y (constant S4096x512 .f32 0x00000000#32) (ix2 n j)
      = ∑ c : Fin 64, x (ix2 n c) * y (ix2 j c) := by
  simp only [matmul]
  rw [Ideal.matmul_constant_zero_apply, ← Equiv.sum_comp (contrEquiv1 dot_S4096x64_S512x64_S4096x512_1_1_0_0_n_n 64 rfl rfl).symm]
  refine Finset.sum_congr rfl fun k _ => ?_
  have hk := contrEquiv1_symm_val dot_S4096x64_S512x64_S4096x512_1_1_0_0_n_n 64 rfl rfl k
  have el : dot_S4096x64_S512x64_S4096x512_1_1_0_0_n_n.lhsIdx (ix2 n j) ((contrEquiv1 dot_S4096x64_S512x64_S4096x512_1_1_0_0_n_n 64 rfl rfl).symm k) = ix2 n k := funext fun a => Fin.ext (by
    match a with
    | ⟨0, _⟩ => exact gram_lhs_0 _ _
    | ⟨1, _⟩ => exact (gram_lhs_1 _ _).trans hk)
  have er : dot_S4096x64_S512x64_S4096x512_1_1_0_0_n_n.rhsIdx (ix2 n j) ((contrEquiv1 dot_S4096x64_S512x64_S4096x512_1_1_0_0_n_n 64 rfl rfl).symm k) = ix2 j k := funext fun a => Fin.ext (by
    match a with
    | ⟨0, _⟩ => exact gram_rhs_0 _ _
    | ⟨1, _⟩ => exact (gram_rhs_1 _ _).trans hk)
  rw [el, er]

/-! ## The cosine tile and the adjacency tile at an entry -/

/-- A slice of 512 rows from `off` reads, at row j, the operand's row `nodeAt off j`. -/
private theorem rows_apply {α : Type} {w : ℕ} (off : ℕ) (hoff : off + 512 ≤ 4096) (X : (⟨2, ![4096, w]⟩ : Shape).Idx → α)
    (h : (⟨2, ![4096, w]⟩ : Shape).Slices ![off, 0] ⟨2, ![512, w]⟩) (j : Fin 512) (e : Fin w) :
    extractStridedSlice ⟨2, ![512, w]⟩ ![off, 0] X h (ix2 j e) = X (ix2 (nodeAt off hoff j) e) :=
  slice2_axis0_apply off X h j e (nodeAt off hoff j) rfl

/-- The cosine tile at (n, j): the Gram entry over the product of the two norm entries. -/
private theorem corrT_apply (off : ℕ) (hoff : off + 512 ≤ 4096) (h1 : S4096x64.Slices ![off, 0] S512x64) (h2 : S4096x1.Slices ![off, 0] S512x1)
    (x : FVec Ideal S4096x64 .f32) (nr : FVec Ideal S4096x1 .f32) (n : Fin 4096) (j : Fin 512) :
    corrT off h1 h2 x nr (ix2 n j)
      = Ideal.div (∑ c : Fin 64, x (ix2 n c) * x (ix2 (nodeAt off hoff j) c))
          (nr (ix2 n (0 : Fin 1)) * nr (ix2 (nodeAt off hoff j) (0 : Fin 1))) := by
  unfold corrT
  rw [divf_apply, mulf_apply, gram_apply, RowOps.broadcastTo_a1_ab_apply, broadcastTo_1b_ab_apply, transpose_ix2_apply,
    rows_apply off hoff nr h2]
  refine congrArg (fun s => Ideal.div s _) (Finset.sum_congr rfl fun c _ => ?_)
  rw [rows_apply off hoff x h1]

/-- A one-bit word, widened to 32 bits and read as a signed integer, is the number 0 or 1. -/
private theorem ind_eq (b : BitVec 1) : (((b.setWidth 32).toInt : ℝ) : EReal) = Gnn.ind b := by
  rcases BitVec.eq_zero_or_eq_one b with rfl | rfl
  · simp [Gnn.ind]
  · have h : ((1#1 : BitVec 1).setWidth 32).toInt = 1 := by decide
    rw [h]; simp [Gnn.ind]

/-- The indicator tile at an entry. -/
private theorem adjOf_apply (cr : FVec Ideal S4096x512 .f32) (i : S4096x512.Idx) :
    adjOf cr i = Gnn.ind (Ideal.cmp .ogt (cr i) Gnn.thr) := by
  unfold adjOf
  rw [sitofp_apply, extui_apply, cmpf_apply, broadcast_apply]
  exact ind_eq _

/-- An adjacency tile's entry is the adjacency indicator of the node pair, once the norm column is the row norms. -/
theorem adjT_apply (off : ℕ) (hoff : off + 512 ≤ 4096) (h1 : S4096x64.Slices ![off, 0] S512x64) (h2 : S4096x1.Slices ![off, 0] S512x1)
    (x : FVec Ideal S4096x64 .f32) (nr : FVec Ideal S4096x1 .f32) (hnr : colv nr = Gnn.nrm (mat x))
    (n : Fin 4096) (j : Fin 512) :
    adjT off h1 h2 x nr (ix2 n j) = Gnn.adj (mat x) n (nodeAt off hoff j) := by
  have e1 : nr (ix2 n (0 : Fin 1)) = Gnn.nrm (mat x) n := congrFun hnr n
  have e2 : nr (ix2 (nodeAt off hoff j) (0 : Fin 1)) = Gnn.nrm (mat x) (nodeAt off hoff j) := congrFun hnr (nodeAt off hoff j)
  unfold adjT
  rw [adjOf_apply, corrT_apply off hoff, e1, e2]
  rfl

/-! ## A tile's share of the degree -/

/-- A tile's share of the degree at node n: the row sum of the tile's indicators. -/
private theorem degT_apply (off : ℕ) (hoff : off + 512 ≤ 4096) (h1 : S4096x64.Slices ![off, 0] S512x64) (h2 : S4096x1.Slices ![off, 0] S512x1)
    (x : FVec Ideal S4096x64 .f32) (nr : FVec Ideal S4096x1 .f32) (hnr : colv nr = Gnn.nrm (mat x)) (n : Fin 4096) :
    degT off h1 h2 x nr (ix2 n (0 : Fin 1)) = ∑ j : Fin 512, Gnn.adj (mat x) n (nodeAt off hoff j) := by
  unfold degT
  refine (RowOps.shapeCast_a_a1_apply _ _ n (0 : Fin 1)).trans ?_
  refine (RowOps.multiReduction_add_row _ _ _ _ _ n).trans ?_
  exact Finset.sum_congr rfl fun j _ => adjT_apply off hoff h1 h2 x nr hnr n j

/-! ## A tile's share of a diffusion: a product contracting the tile's 512 nodes -/

private theorem dif_lhs_0 (i : S4096x64.Idx) (q : dot_S4096x512_S512x64_S4096x64_1_0_0_1_n_n.contr.Idx) :
    (dot_S4096x512_S512x64_S4096x64_1_0_0_1_n_n.lhsIdx i q 0).val = (i 0).val := by
  unfold DotDims.lhsIdx
  rw [dif_neg (show ¬(0 : Fin S4096x512.rank) ∈ dot_S4096x512_S512x64_S4096x64_1_0_0_1_n_n.lhsBatch by decide), dif_pos (show (0 : Fin S4096x512.rank) ∈ dot_S4096x512_S512x64_S4096x64_1_0_0_1_n_n.lhsNonContracting by decide)]
  rfl
private theorem dif_lhs_1 (i : S4096x64.Idx) (q : dot_S4096x512_S512x64_S4096x64_1_0_0_1_n_n.contr.Idx) :
    (dot_S4096x512_S512x64_S4096x64_1_0_0_1_n_n.lhsIdx i q 1).val = (q ⟨0, by decide⟩).val :=
  dot_S4096x512_S512x64_S4096x64_1_0_0_1_n_n.lhsIdx_val_of_single rfl i q
private theorem dif_rhs_0 (i : S4096x64.Idx) (q : dot_S4096x512_S512x64_S4096x64_1_0_0_1_n_n.contr.Idx) :
    (dot_S4096x512_S512x64_S4096x64_1_0_0_1_n_n.rhsIdx i q 0).val = (q ⟨0, by decide⟩).val :=
  dot_S4096x512_S512x64_S4096x64_1_0_0_1_n_n.rhsIdx_val_of_single rfl i q
private theorem dif_rhs_1 (i : S4096x64.Idx) (q : dot_S4096x512_S512x64_S4096x64_1_0_0_1_n_n.contr.Idx) :
    (dot_S4096x512_S512x64_S4096x64_1_0_0_1_n_n.rhsIdx i q 1).val = (i 1).val := by
  unfold DotDims.rhsIdx
  rw [dif_neg (show ¬(1 : Fin S512x64.rank) ∈ dot_S4096x512_S512x64_S4096x64_1_0_0_1_n_n.rhsBatch by decide), dif_pos (show (1 : Fin S512x64.rank) ∈ dot_S4096x512_S512x64_S4096x64_1_0_0_1_n_n.rhsNonContracting by decide)]
  rfl

/-- The product of a tile with 512 rows of features into the zero accumulator, at (n, c): the sum over the tile's
    nodes of the products. -/
private theorem tileMul_apply (A : FVec Ideal S4096x512 .f32) (y : FVec Ideal S512x64 .f32) (n : Fin 4096) (c : Fin 64) :
    matmul dot_S4096x512_S512x64_S4096x64_1_0_0_1_n_n none A y (constant S4096x64 .f32 0x00000000#32) (ix2 n c)
      = ∑ j : Fin 512, A (ix2 n j) * y (ix2 j c) := by
  simp only [matmul]
  rw [Ideal.matmul_constant_zero_apply, ← Equiv.sum_comp (contrEquiv1 dot_S4096x512_S512x64_S4096x64_1_0_0_1_n_n 512 rfl rfl).symm]
  refine Finset.sum_congr rfl fun k _ => ?_
  have hk := contrEquiv1_symm_val dot_S4096x512_S512x64_S4096x64_1_0_0_1_n_n 512 rfl rfl k
  have el : dot_S4096x512_S512x64_S4096x64_1_0_0_1_n_n.lhsIdx (ix2 n c) ((contrEquiv1 dot_S4096x512_S512x64_S4096x64_1_0_0_1_n_n 512 rfl rfl).symm k) = ix2 n k := funext fun a => Fin.ext (by
    match a with
    | ⟨0, _⟩ => exact dif_lhs_0 _ _
    | ⟨1, _⟩ => exact (dif_lhs_1 _ _).trans hk)
  have er : dot_S4096x512_S512x64_S4096x64_1_0_0_1_n_n.rhsIdx (ix2 n c) ((contrEquiv1 dot_S4096x512_S512x64_S4096x64_1_0_0_1_n_n 512 rfl rfl).symm k) = ix2 k c := funext fun a => Fin.ext (by
    match a with
    | ⟨0, _⟩ => exact (dif_rhs_0 _ _).trans hk
    | ⟨1, _⟩ => exact dif_rhs_1 _ _)
  rw [el, er]

/-- A tile's share of the diffusion of `vs` at (n, c). -/
private theorem difT_apply (off : ℕ) (hoff : off + 512 ≤ 4096) (h1 : S4096x64.Slices ![off, 0] S512x64) (h2 : S4096x1.Slices ![off, 0] S512x1)
    (hv : S4096x64.Slices ![off, 0] S512x64)
    (x : FVec Ideal S4096x64 .f32) (nr : FVec Ideal S4096x1 .f32) (hnr : colv nr = Gnn.nrm (mat x))
    (vs : FVec Ideal S4096x64 .f32) (n : Fin 4096) (c : Fin 64) :
    difT off h1 h2 hv x nr vs (ix2 n c)
      = ∑ j : Fin 512, Gnn.adj (mat x) n (nodeAt off hoff j) * vs (ix2 (nodeAt off hoff j) c) := by
  unfold difT
  refine (tileMul_apply _ _ n c).trans ?_
  refine Finset.sum_congr rfl fun j _ => ?_
  rw [adjT_apply off hoff h1 h2 x nr hnr n j, rows_apply off hoff vs hv]

/-! ## A sum over the 4096 nodes as eight sums over 512 consecutive nodes -/

/-- The sum over the first `a + 512` nodes is the sum over the first `a` plus the sum over the tile from `a`. -/
private theorem sum_prefix_step {M : Type*} [AddCommMonoid M] (g : Fin 4096 → M) (a : ℕ) (h : a + 512 ≤ 4096) :
    ∑ i : Fin (a + 512), g ⟨i.val, by have := i.isLt; omega⟩
      = ∑ i : Fin a, g ⟨i.val, by have := i.isLt; omega⟩ + ∑ j : Fin 512, g (nodeAt a h j) := by
  rw [Fin.sum_univ_add]
  rfl

/-- Zero plus the eight tiles' sums, in order, is the sum over all nodes. -/
private theorem sum_tiles {M : Type*} [AddCommMonoid M] (g : Fin 4096 → M) :
    ((((((((0 + ∑ j : Fin 512, g (nodeAt 0 (by norm_num) j)) + ∑ j : Fin 512, g (nodeAt 512 (by norm_num) j))
      + ∑ j : Fin 512, g (nodeAt 1024 (by norm_num) j)) + ∑ j : Fin 512, g (nodeAt 1536 (by norm_num) j))
      + ∑ j : Fin 512, g (nodeAt 2048 (by norm_num) j)) + ∑ j : Fin 512, g (nodeAt 2560 (by norm_num) j))
      + ∑ j : Fin 512, g (nodeAt 3072 (by norm_num) j)) + ∑ j : Fin 512, g (nodeAt 3584 (by norm_num) j))
      = ∑ m : Fin 4096, g m := by
  refine Eq.symm ((sum_prefix_step g 3584 (by norm_num)).trans (congrArg₂ (· + ·) ?_ rfl))
  refine (sum_prefix_step g 3072 (by norm_num)).trans (congrArg₂ (· + ·) ?_ rfl)
  refine (sum_prefix_step g 2560 (by norm_num)).trans (congrArg₂ (· + ·) ?_ rfl)
  refine (sum_prefix_step g 2048 (by norm_num)).trans (congrArg₂ (· + ·) ?_ rfl)
  refine (sum_prefix_step g 1536 (by norm_num)).trans (congrArg₂ (· + ·) ?_ rfl)
  refine (sum_prefix_step g 1024 (by norm_num)).trans (congrArg₂ (· + ·) ?_ rfl)
  refine (sum_prefix_step g 512 (by norm_num)).trans (congrArg₂ (· + ·) ?_ rfl)
  refine (sum_prefix_step g 0 (by norm_num)).trans (congrArg₂ (· + ·) ?_ rfl)
  exact Fin.sum_univ_zero _

/-! ## The degree column and the diffusion, whole -/

/-- The degree column is the degree of the specification. -/
theorem degV_apply (x : FVec Ideal S4096x64 .f32) (nr : FVec Ideal S4096x1 .f32) (hnr : colv nr = Gnn.nrm (mat x)) (n : Fin 4096) :
    degV x nr (ix2 n (0 : Fin 1)) = Gnn.deg (mat x) n := by
  unfold degV
  rw [addf_apply, addf_apply, addf_apply, addf_apply, addf_apply, addf_apply, addf_apply, addf_apply, broadcast_apply,
    degT_apply 0 (by norm_num) _ _ x nr hnr n, degT_apply 512 (by norm_num) _ _ x nr hnr n,
    degT_apply 1024 (by norm_num) _ _ x nr hnr n, degT_apply 1536 (by norm_num) _ _ x nr hnr n,
    degT_apply 2048 (by norm_num) _ _ x nr hnr n, degT_apply 2560 (by norm_num) _ _ x nr hnr n,
    degT_apply 3072 (by norm_num) _ _ x nr hnr n, degT_apply 3584 (by norm_num) _ _ x nr hnr n,
    Ideal.ofBits_def, Ideal.ofBits_zero_f32]
  exact sum_tiles (Gnn.adj (mat x) n)

/-- The tiled adjacency applied to `vs` is the sum over all nodes. -/
theorem diffV_apply (x : FVec Ideal S4096x64 .f32) (nr : FVec Ideal S4096x1 .f32) (hnr : colv nr = Gnn.nrm (mat x))
    (vs : FVec Ideal S4096x64 .f32) (n : Fin 4096) (c : Fin 64) :
    diffV x nr vs (ix2 n c) = ∑ m : Fin 4096, Gnn.adj (mat x) n m * vs (ix2 m c) := by
  unfold diffV
  rw [addf_apply, addf_apply, addf_apply, addf_apply, addf_apply, addf_apply, addf_apply, addf_apply, broadcast_apply,
    difT_apply 0 (by norm_num) _ _ _ x nr hnr vs n c, difT_apply 512 (by norm_num) _ _ _ x nr hnr vs n c,
    difT_apply 1024 (by norm_num) _ _ _ x nr hnr vs n c, difT_apply 1536 (by norm_num) _ _ _ x nr hnr vs n c,
    difT_apply 2048 (by norm_num) _ _ _ x nr hnr vs n c, difT_apply 2560 (by norm_num) _ _ _ x nr hnr vs n c,
    difT_apply 3072 (by norm_num) _ _ _ x nr hnr vs n c, difT_apply 3584 (by norm_num) _ _ _ x nr hnr vs n c,
    Ideal.ofBits_def, Ideal.ofBits_zero_f32]
  exact sum_tiles (fun m => Gnn.adj (mat x) n m * vs (ix2 m c))

end Cert.KernelIdeal.Tile

end
-- ==== Proof.KernelRows.lean ====
/-
  The row operations of the kernel body read at an index, and the whole body as the specification's first
  arrangement.

  Each step of a layer looks, at node n and channel c, at one entry of its operands or at the 64 entries of row n:
  a row sum kept as a column, a column broadcast back over its row, the projection by a 64 × 64 weight matrix, and the
  row normalisation. Read this way a layer of the body is a layer of the specification, and the body is two of them.
-/
import proofs.«168937_j24618752540869_1_alg».proof.Proof.KernelTiles

noncomputable section

namespace Cert.KernelIdeal.Tile

open Cert.KernelIdeal Cert.KernelIdeal.Gen Idealize.ShloMosaic Idealize.ShloMosaic.ValueIdx

/-! ## Views, row sums and columns -/

/-- The node matrix at (n, c) is the loaded block at (0, n, c). -/
theorem xV_apply (x0 : Vec Ideal S1x4096x64 .f32) (n : Fin 4096) (c : Fin 64) :
    xV x0 (ix2 n c) = x0 (ix3 (0 : Fin 1) n c) :=
  shapeCast_1ab_ab_apply x0 shapeCasts_S1x4096x64_S4096x64 n c

/-- The row sum at n is the sum of the 64 entries of row n. -/
theorem rowSum_apply (h : FVec Ideal S4096x64 .f32) (n : Fin 4096) :
    rowSum h (ix2 n (0 : Fin 1)) = ∑ f : Fin 64, h (ix2 n f) :=
  (RowOps.shapeCast_a_a1_apply _ shapeCasts_S4096_S4096x1 n (0 : Fin 1)).trans
    (RowOps.multiReduction_add_row h 0x00000000#32 reduces_S4096x64_S4096 (.inl rfl) rfl n)

/-- The norm column is the row norms of the specification. -/
theorem nrV_apply (x : FVec Ideal S4096x64 .f32) : colv (nrV x) = Gnn.nrm (mat x) := by
  funext n
  show Ideal.sqrt (rowSum (mulf x x) (ix2 n (0 : Fin 1))) = _
  rw [rowSum_apply]
  rfl

/-- A column times a matrix, at (n, c): the column's entry n times the matrix's entry. -/
theorem scaleV_apply (d : FVec Ideal S4096x1 .f32) (v : FVec Ideal S4096x64 .f32) (n : Fin 4096) (c : Fin 64) :
    scaleV d v (ix2 n c) = d (ix2 n (0 : Fin 1)) * v (ix2 n c) := by
  show broadcastTo S4096x64 d broadcasts_S4096x1_S4096x64 (ix2 n c) * v (ix2 n c) = _
  rw [RowOps.broadcastTo_a1_ab_apply]

/-! ## The projection by a weight matrix -/

private theorem proj_lhs_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
private theorem proj_lhs_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
private theorem proj_rhs_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
private theorem proj_rhs_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- The projection at (n, f): the sum over channels c of row n's entry c times the weight at (c, f). -/
theorem projV_apply (l : FVec Ideal S4096x64 .f32) (w : Vec Ideal S1x64x64 .f32) (n : Fin 4096) (f : Fin 64) :
    projV l w (ix2 n f) = ∑ c : Fin 64, l (ix2 n c) * w (ix3 (0 : Fin 1) c f) := by
  unfold projV
  have hW : ∀ c f, shapeCast S64x64 w shapeCasts_S1x64x64_S64x64 (ix2 c f) = w (ix3 (0 : Fin 1) c f) :=
    fun c f => shapeCast_1ab_ab_apply w shapeCasts_S1x64x64_S64x64 c f
  generalize shapeCast S64x64 w shapeCasts_S1x64x64_S64x64 = W at hW
  simp only [matmul]
  rw [Ideal.matmul_constant_zero_apply, ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 n f) ((contrEquiv1 dot_S4096x64_S64x64_S4096x64_1_0_0_1_n_n 64 rfl rfl).symm k) = ix2 n k := funext fun a => Fin.ext (by
    match a with
    | ⟨0, _⟩ => exact proj_lhs_0 _ _
    | ⟨1, _⟩ => exact (proj_lhs_1 _ _).trans hk)
  have er : dot_S4096x64_S64x64_S4096x64_1_0_0_1_n_n.rhsIdx (ix2 n f) ((contrEquiv1 dot_S4096x64_S64x64_S4096x64_1_0_0_1_n_n 64 rfl rfl).symm k) = ix2 k f := funext fun a => Fin.ext (by
    match a with
    | ⟨0, _⟩ => exact (proj_rhs_0 _ _).trans hk
    | ⟨1, _⟩ => exact proj_rhs_1 _ _)
  rw [el, er, hW]

/-- The projection as a matrix is the specification's projection by the weight read without its unit axis. -/
theorem mat_projV (l : FVec Ideal S4096x64 .f32) (w : Vec Ideal S1x64x64 .f32) :
    mat (projV l w) = Gnn.proj (mat l) (fun c f => w (ix3 (0 : Fin 1) c f)) := by
  funext n f
  exact projV_apply l w n f

/-! ## Row normalisation -/

/-- The mean column is the specification's row mean. -/
theorem meanV_apply (h : FVec Ideal S4096x64 .f32) (n : Fin 4096) :
    meanV h (ix2 n (0 : Fin 1)) = Gnn.mean (mat h) n := by
  show Ideal.div (rowSum h (ix2 n (0 : Fin 1))) _ = _
  rw [rowSum_apply]
  rfl

/-- A row with its mean removed, at (n, f). -/
theorem cenV_apply (h : FVec Ideal S4096x64 .f32) (n : Fin 4096) (f : Fin 64) :
    cenV h (ix2 n f) = Gnn.cen (mat h) n f := by
  show h (ix2 n f) - broadcastTo S4096x64 (meanV h) broadcasts_S4096x1_S4096x64 (ix2 n f) = _
  rw [RowOps.broadcastTo_a1_ab_apply, meanV_apply]
  rfl

/-- The variance column is the specification's row variance. -/
theorem varV_apply (h : FVec Ideal S4096x64 .f32) (n : Fin 4096) :
    varV h (ix2 n (0 : Fin 1)) = Gnn.var (mat h) n := by
  show Ideal.div (rowSum (mulf (cenV h) (cenV h)) (ix2 n (0 : Fin 1))) _ = _
  rw [rowSum_apply]
  refine congrArg (fun s => Ideal.div s Gnn.c64) (Finset.sum_congr rfl fun f _ => ?_)
  show cenV h (ix2 n f) * cenV h (ix2 n f) = _
  rw [cenV_apply]

/-- The normalised and clamped row, at (n, f). -/
theorem normV_apply (h : FVec Ideal S4096x64 .f32) (n : Fin 4096) (f : Fin 64) :
    normV h (ix2 n f) = Gnn.inK (mat h) n f := by
  show max (cenV h (ix2 n f) * broadcastTo S4096x64 (rsqrt (addf (varV h) (broadcast S4096x1 (Scalar.ofBits .f32 0x3727C5AC#32)))) broadcasts_S4096x1_S4096x64 (ix2 n f))
      (Ideal.ofBits .f32 0x00000000#32) = _
  rw [RowOps.broadcastTo_a1_ab_apply, cenV_apply, Ideal.ofBits_zero_f32]
  show max (Gnn.cen (mat h) n f * Ideal.rsqrt (varV h (ix2 n (0 : Fin 1)) + Gnn.eps)) 0 = _
  rw [varV_apply]
  rfl

/-- Row normalisation as a matrix. -/
theorem mat_normV (h : FVec Ideal S4096x64 .f32) : mat (normV h) = Gnn.inK (mat h) := by
  funext n f
  exact normV_apply h n f

/-! ## A layer, and the body -/

/-- The inverse-square-root column is that of the specification's degree, once the norm column is the row norms. -/
theorem disV_apply (x : FVec Ideal S4096x64 .f32) (nr : FVec Ideal S4096x1 .f32) (hnr : colv nr = Gnn.nrm (mat x)) :
    colv (disV x nr) = Gnn.dK (mat x) := by
  funext n
  show Ideal.rsqrt (degV x nr (ix2 n (0 : Fin 1))) = _
  rw [degV_apply x nr hnr]
  rfl

/-- The scaled diffusion of scaled features is the specification's diffusion. -/
theorem mat_lap (x : FVec Ideal S4096x64 .f32) (nr : FVec Ideal S4096x1 .f32) (hnr : colv nr = Gnn.nrm (mat x))
    (v : FVec Ideal S4096x64 .f32) :
    mat (scaleV (disV x nr) (diffV x nr (scaleV (disV x nr) v))) = Gnn.lapK (mat x) (mat v) := by
  have hd : ∀ n, disV x nr (ix2 n (0 : Fin 1)) = Gnn.dK (mat x) n := fun n => congrFun (disV_apply x nr hnr) n
  funext n c
  show scaleV (disV x nr) (diffV x nr (scaleV (disV x nr) v)) (ix2 n c) = _
  rw [scaleV_apply, diffV_apply x nr hnr, hd]
  refine congrArg (fun s => Gnn.dK (mat x) n * s) (Finset.sum_congr rfl fun m _ => ?_)
  rw [scaleV_apply, hd]
  rfl

/-- One layer of the body on features scaled by the inverse-square-root column is one layer of the first arrangement. -/
theorem layerV_apply (x : FVec Ideal S4096x64 .f32) (nr : FVec Ideal S4096x1 .f32) (hnr : colv nr = Gnn.nrm (mat x))
    (v : FVec Ideal S4096x64 .f32) (w : Vec Ideal S1x64x64 .f32) :
    mat (layerV x nr (disV x nr) (scaleV (disV x nr) v) w)
      = Gnn.layerK (mat x) (mat v) (fun c f => w (ix3 (0 : Fin 1) c f)) := by
  unfold layerV Gnn.layerK
  rw [mat_normV, mat_projV, mat_lap x nr hnr]

/-- The body's result at node n and feature f is two layers of the first arrangement on the loaded blocks. -/
theorem bodyV_apply (x0 : Vec Ideal S1x4096x64 .f32) (w0 w1 : Vec Ideal S1x64x64 .f32) (n : Fin 4096) (f : Fin 64) :
    bodyV x0 w0 w1 (ix3 (0 : Fin 1) n f)
      = Gnn.outK (fun n c => x0 (ix3 (0 : Fin 1) n c)) (fun c f => w0 (ix3 (0 : Fin 1) c f)) (fun c f => w1 (ix3 (0 : Fin 1) c f)) n f := by
  unfold bodyV
  refine (shapeCast_ab_1ab_apply _ shapeCasts_S4096x64_S1x4096x64 (0 : Fin 1) n f).trans ?_
  have hnr := nrV_apply (xV x0)
  have hX : mat (xV x0) = fun n c => x0 (ix3 (0 : Fin 1) n c) := by
    funext n c
    exact xV_apply x0 n c
  have h1 := layerV_apply (xV x0) (nrV (xV x0)) hnr (xV x0) w0
  have h2 := layerV_apply (xV x0) (nrV (xV x0)) hnr
    (layerV (xV x0) (nrV (xV x0)) (disV (xV x0) (nrV (xV x0))) (scaleV (disV (xV x0) (nrV (xV x0))) (xV x0)) w0) w1
  rw [h1, hX] at h2
  exact congrFun (congrFun h2 n) f

end Cert.KernelIdeal.Tile

end
-- ==== Proof.KernelArray.lean ====
/-
  From blocks to the whole result array.

  The grid has one point per image. At point t the body sees image t of the node-feature array (a block of one
  image, 4096 nodes by 64 channels) and the two weight arrays whole, and writes image t of the result. So the
  result array is ONE function `G` of the node-feature array and the weights: at (b, n, f) it is the two-layer
  diffusion of image b, read at node n and feature f. Each point's write-back is a block of `G`, the four blocks
  cover the array, hence the array ends at `G`.
-/
import proofs.«168937_j24618752540869_1_alg».proof.Proof.Gen.KernelIdeal.Value
import proofs.«168937_j24618752540869_1_alg».proof.Proof.KernelRows
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Value Cert.KernelIdeal.Tile

variable (m : (ℓ : Loc nD τ sig) → Buf (Elt Ideal) ℓ) (ρ : Dev nD → PrngReg)

/-- The result array as one function of the node-feature array and the two weight arrays. -/
def G (xl : S4x4096x64.Idx → EReal) (w0 w1 : S1x64x64.Idx → EReal) : S4x4096x64.Idx → EReal := fun i =>
  Gnn.outK (N := 4096) (C := 64) (fun n c => xl (ix3 (⟨(i 0).val, (i 0).isLt⟩ : Fin 4) n c))
    (fun c f => w0 (ix3 (0 : Fin 1) c f)) (fun c f => w1 (ix3 (0 : Fin 1) c f))
    (⟨(i 1).val, (i 1).isLt⟩ : Fin 4096) (⟨(i 2).val, (i 2).isLt⟩ : Fin 64)

theorem hz : (![0, 0, 0] : Fin 3 → Nat) = fun _ => 0 := funext fun a => by fin_cases a <;> rfl

/-- The body's result on blocks that are image b of `xl` and the weights whole is image b of `G`. -/
theorem block_eq (x0 : Vec Ideal S1x4096x64 .f32) (w0 w1 : Vec Ideal S1x64x64 .f32)
    (xl : S4x4096x64.Idx → EReal) (b : Fin 4)
    (hx : ∀ (n : Fin 4096) (c : Fin 64), x0 (ix3 (0 : Fin 1) n c) = xl (ix3 b n c))
    (y : S1x4096x64.Idx) (i : S4x4096x64.Idx) (hi0 : (i 0).val = b.val) (hi1 : (i 1).val = (y 1).val) (hi2 : (i 2).val = (y 2).val) :
    bodyV x0 w0 w1 y = G xl w0 w1 i := by
  obtain ⟨u, n, f, rfl⟩ : ∃ (u : Fin 1) (n : Fin 4096) (f : Fin 64), y = ix3 u n f := ⟨y 0, y 1, y 2, eq_ix3 y⟩
  obtain rfl : u = 0 := Subsingleton.elim _ _
  rw [bodyV_apply]
  unfold G
  have e0 : (⟨(i 0).val, (i 0).isLt⟩ : Fin 4) = b := Fin.ext hi0
  have e1 : (⟨(i 1).val, (i 1).isLt⟩ : Fin 4096) = n := Fin.ext hi1
  have e2 : (⟨(i 2).val, (i 2).isLt⟩ : Fin 64) = f := Fin.ext hi2
  rw [e0, e1, e2]
  exact congrArg (fun X => Gnn.outK X _ _ n f) (funext fun n' => funext fun c' => hx n' c')

/-- The printed index maps over the grid: windows 0 and 3 move with the image, windows 1 and 2 stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- WHAT POINT `t` WRITES BACK is block `t` of `G` of the arrays as the region finds them. -/
theorem flushed_eq (c : Dev nD) (t : Fin cfg0.N) :
    (dats m 0 c).flushed 3 t
      = ((cfg0.win 3).blk t).view.read (Elt Ideal) (G (V m c main_v1) (V m c main_arg1) (V m c main_arg2)) := by
  rw [Value.flushed3, body_eq, View.canon_unit_zero hz]
  simp only [View.ld_unit_zero (S := S1x4096x64) hz, View.ld_unit_zero (S := S1x64x64) hz]
  obtain ⟨a00, a01, a02, a10, a11, a12, a20, a21, a22, a30, a31, a32⟩ := idx_facts t
  have hN : cfg0.N = 4 := N_0
  have htl : t.val < 4 := hN ▸ t.isLt
  funext y
  have hy0 : (y 0).val = 0 := by have : (y 0).val < 1 := (y 0).isLt; omega
  have h1 : iblk m c 1 t = V m c main_arg1 := by
    funext z
    unfold iblk
    rw [View.read_apply]
    show V m c main_arg1 _ = V m c main_arg1 z
    congr 1
    funext a
    apply Fin.ext
    match a with
    | ⟨0, _⟩ => show win0_1.index t (0 : Fin 3) * 1 + 1 * (z 0).val = (z 0).val; omega
    | ⟨1, _⟩ => show win0_1.index t (1 : Fin 3) * 64 + 1 * (z 1).val = (z 1).val; omega
    | ⟨2, _⟩ => show win0_1.index t (2 : Fin 3) * 64 + 1 * (z 2).val = (z 2).val; omega
  have h2 : iblk m c 2 t = V m c main_arg2 := by
    funext z
    unfold iblk
    rw [View.read_apply]
    show V m c main_arg2 _ = V m c main_arg2 z
    congr 1
    funext a
    apply Fin.ext
    match a with
    | ⟨0, _⟩ => show win0_2.index t (0 : Fin 3) * 1 + 1 * (z 0).val = (z 0).val; omega
    | ⟨1, _⟩ => show win0_2.index t (1 : Fin 3) * 64 + 1 * (z 1).val = (z 1).val; omega
    | ⟨2, _⟩ => show win0_2.index t (2 : Fin 3) * 64 + 1 * (z 2).val = (z 2).val; omega
  show bodyV (iblk m c 0 t) (iblk m c 1 t) (iblk m c 2 t) y = G (V m c main_v1) (V m c main_arg1) (V m c main_arg2) (((cfg0.win 3).blk t).view.emb y)
  rw [h1, h2]
  refine block_eq (iblk m c 0 t) (V m c main_arg1) (V m c main_arg2) (V m c main_v1) ⟨t.val, htl⟩ (fun n c' => ?_) y _ ?_ ?_ ?_
  · unfold iblk
    rw [View.read_apply]
    show V m c main_v1 _ = V m c main_v1 _
    congr 1
    funext a
    apply Fin.ext
    match a with
    | ⟨0, _⟩ => show win0_0.index t (0 : Fin 3) * 1 + 1 * 0 = t.val; omega
    | ⟨1, _⟩ => show win0_0.index t (1 : Fin 3) * 4096 + 1 * n.val = n.val; omega
    | ⟨2, _⟩ => show win0_0.index t (2 : Fin 3) * 64 + 1 * c'.val = c'.val; omega
  · show win0_3.index t (0 : Fin 3) * 1 + 1 * (y 0).val = t.val; omega
  · show win0_3.index t (1 : Fin 3) * 4096 + 1 * (y 1).val = (y 1).val; omega
  · show win0_3.index t (2 : Fin 3) * 64 + 1 * (y 2).val = (y 2).val; omega

/-- An index of the result array is in point `t`'s block iff each coordinate is in the block's range. -/
theorem mem_blk (t : Fin cfg0.N) (i : S4x4096x64.Idx) :
    i ∈ ((cfg0.win 3).blk t).view.set ↔ ∀ a : Fin 3, win0_3.index t a * S1x4096x64.size a ≤ (i a).val ∧ (i a).val < win0_3.index t a * S1x4096x64.size a + S1x4096x64.size a := by
  show i ∈ ((View.whole main_v2).slice (win0_3.rect t)).set ↔ _
  rw [View.set_slice_whole, Rect.mem_set_unit]
  exact Iff.rfl

/-- Every index of the result array is in the block of the point of its image. -/
theorem cover (i : S4x4096x64.Idx) : ∃ t : Fin cfg0.N, (cfg0.win 3).flush t = true ∧ i ∈ ((cfg0.win 3).blk t).view.set := by
  have hN : cfg0.N = 4 := N_0
  have hi0 : (i 0).val < 4 := (i 0).isLt
  have hi1 : (i 1).val < 4096 := (i 1).isLt
  have hi2 : (i 2).val < 64 := (i 2).isLt
  refine ⟨⟨(i 0).val, by omega⟩, flush0_3 _, ?_⟩
  rw [mem_blk]
  obtain ⟨-, -, -, -, -, -, -, -, -, a30, a31, a32⟩ := idx_facts ⟨(i 0).val, by omega⟩
  intro a
  match a with
  | ⟨0, _⟩ => show win0_3.index _ (0 : Fin 3) * 1 ≤ (i 0).val ∧ (i 0).val < win0_3.index _ (0 : Fin 3) * 1 + 1; rw [a30]; show (i 0).val * 1 ≤ (i 0).val ∧ (i 0).val < (i 0).val * 1 + 1; omega
  | ⟨1, _⟩ => show win0_3.index _ (1 : Fin 3) * 4096 ≤ (i 1).val ∧ (i 1).val < win0_3.index _ (1 : Fin 3) * 4096 + 4096; rw [a31]; omega
  | ⟨2, _⟩ => show win0_3.index _ (2 : Fin 3) * 64 ≤ (i 2).val ∧ (i 2).val < win0_3.index _ (2 : Fin 3) * 64 + 64; rw [a32]; omega

/-- THE ARRAY after the run is `G` of the arrays as the region finds them. -/
theorem final (c : Dev nD) :
    (dats m 0 c).arrAt 3 cfg0.N = G (V m c main_v1) (V m c main_arg1) (V m c main_arg2) :=
  (dats m 0 c).arrAt_eq_of_cover 3 (G (V m c main_v1) (V m c main_arg1) (V m c main_arg2)) (fun t _ => flushed_eq m c t) cover

/-- The node-feature array the region finds: the argument with its two pixel axes merged and the channel axis
    moved last. -/
theorem V_main_v1 (c : Dev nD) :
    (V m c main_v1 : S4x4096x64.Idx → EReal)
      = transpose S4x4096x64 [0, 2, 1] (shapeCast S4x64x4096 (m ((c : Thread nD τ).loc main_arg0)) shapeCasts_S4x64x64x64_S4x64x4096)
          transposes_S4x64x4096_S4x4096x64_0_2_1 := by
  dsimp only [Gen.V, Gen.hostOps0]
  after_results
  rfl

/-- The kernel's run, read: the result array at `G` of the host-prepared node features and the weight arguments,
    the arguments unchanged. -/
theorem run : θ_run defs (onTc (τ := τ) (main (F := Ideal))) ⟨m, fun _ => 0, ρ⟩ fun r => ∀ c : Dev nD,
      r.2.mem ((c : Thread nD τ).loc main_v2)
        = G (transpose S4x4096x64 [0, 2, 1] (shapeCast S4x64x4096 (m ((c : Thread nD τ).loc main_arg0)) shapeCasts_S4x64x64x64_S4x64x4096)
              transposes_S4x64x4096_S4x4096x64_0_2_1)
            (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨by rw [(h c).1, final m c, V_main_v1 m c, V_main_arg1 m c, V_main_arg2 m c], (h c).2⟩)
    (Value.run_blocks m ρ)

end Cert.KernelIdeal.Arr

end
-- ==== Proof.lean ====
/-
  The kernel and the reference compute the same two-layer graph diffusion.

  Both programs first turn the input image into node features (pixels as nodes, channels last) by the same two
  host operations. The kernel then runs one grid point per image; its result array ends at `Arr.G` of the node
  features and the two weight arrays (the body read at an index, then blocks to array). The reference's result,
  read one operation at a time at an index, is the same diffusion in its second arrangement. The two arrangements
  agree on the extended reals: the inverse square root of the degree is one over its square root wherever the degree
  is nonnegative, a nonnegative real factor moves across the neighbour sum, a node of degree zero has no neighbours
  so its infinite factor only ever multiplies zero, and the variance plus the offset is positive, where multiplying by
  the inverse square root is dividing by the square root.

  The ideal pass rewrote nothing, so the kernel's idealization is its own text read over the extended reals.
-/
import proofs.«168937_j24618752540869_1_alg».proof.Defs
import proofs.«168937_j24618752540869_1_alg».proof.Proof.Gen.Kernel
import proofs.«168937_j24618752540869_1_alg».proof.Proof.Gen.Kernel.Skeleton
import proofs.«168937_j24618752540869_1_alg».proof.Proof.Gen.Kernel.Launch
import proofs.«168937_j24618752540869_1_alg».proof.Proof.Gen.Kernel.Points
import proofs.«168937_j24618752540869_1_alg».proof.Proof.Gen.Kernel.Frame
import proofs.«168937_j24618752540869_1_alg».proof.Proof.Gen.KernelIdeal
import proofs.«168937_j24618752540869_1_alg».proof.Proof.Gen.KernelIdeal.Skeleton
import proofs.«168937_j24618752540869_1_alg».proof.Proof.Gen.KernelIdeal.Launch
import proofs.«168937_j24618752540869_1_alg».proof.Proof.Gen.KernelIdeal.Points
import proofs.«168937_j24618752540869_1_alg».proof.Proof.Gen.KernelIdeal.Frame
import proofs.«168937_j24618752540869_1_alg».proof.Proof.Gen.ReferenceIdeal
import proofs.«168937_j24618752540869_1_alg».proof.Proof.Gen.Pre_finite_inputs
import proofs.«168937_j24618752540869_1_alg».proof.Proof.Gen.KernelIdeal.Value
import proofs.«168937_j24618752540869_1_alg».proof.Proof.RefRun
import proofs.«168937_j24618752540869_1_alg».proof.Proof.RefRead
import proofs.«168937_j24618752540869_1_alg».proof.Proof.RefValue
import proofs.«168937_j24618752540869_1_alg».proof.Proof.Algebra
import proofs.«168937_j24618752540869_1_alg».proof.Proof.KernelArray
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The reference's node features are the kernel's host-prepared ones: the same reshape and transpose of the image. -/
theorem features_eq (x0 : (⟨Cert.ReferenceIdeal.S4x64x64x64, .f32⟩ : BufTy).Contents (Elt Ideal)) :
    Cert.ReferenceIdeal.ReadP.val_main_v1 (F := Ideal) x0
      = transpose Cert.KernelIdeal.S4x4096x64 [0, 2, 1]
          (shapeCast Cert.KernelIdeal.S4x64x4096 x0 Cert.KernelIdeal.Gen.shapeCasts_S4x64x64x64_S4x64x4096)
          Cert.KernelIdeal.Gen.transposes_S4x64x4096_S4x4096x64_0_2_1 := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- At the ideal values the kernel's result array ends at `Arr.G` of the node features and the weights, and the
    reference's at the second arrangement of the same diffusion, index by index; the two arrangements agree. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v68_eq, (hagree c).1, (hagree c).2.1, (hagree c).2.2]
  funext i
  obtain ⟨b, n, f, rfl⟩ : ∃ (b : Fin 4) (n : Fin 4096) (f : Fin 64), i = ix3 b n f := ⟨i 0, i 1, i 2, eq_ix3 i⟩
  rw [Cert.ReferenceIdeal.RefValue.ref_apply, ← Gnn.outK_eq_outR, features_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
